-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩
abbrev S1x3200000 : Shape := ⟨2, ![1, 3200000]⟩
abbrev S3200000 : Shape := ⟨1, ![3200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_v29 : IVec S_ 1) (main_v33 : IVec S3200000 1) (main_c_11 : IVec S_ 1) : IVec S_ 1 :=
  let main_v34 : IVec S_ 1 := (fun x v => Host.reduce IntOp.andi x v reducesTo_S3200000_S_d0 h_S_) main_v33 main_c_11
  let main_v35 : IVec S_ 1 := andi main_v29 main_v34
  main_v35

def fn_part1 {F : FTy → Type} [FloatOps F] (main_arg1 : IVec S2x3200000 32) (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : IVec S1x3200000 32 := (extractStridedSlice S1x3200000 ![0, 0] · slices_S2x3200000_S1x3200000_0_0) main_arg1
  let main_v25 : IVec S3200000 32 := shapeCast S3200000 main_v24 shapeCasts_S1x3200000_S3200000
  let main_c_8 : IVec S_ 32 := constantI S_ 32 0#32
  let main_v26 : IVec S3200000 32 := broadcastInDim S3200000 ![] bcast_S_S3200000 main_c_8
  let main_v27 : IVec S3200000 1 := cmpi .sge main_v25 main_v26
  let main_c_9 : IVec S_ 1 := constantI S_ 1 1#1
  let main_v28 : IVec S_ 1 := (fun x v => Host.reduce IntOp.andi x v reducesTo_S3200000_S_d0 h_S_) main_v27 main_c_9
  let main_v29 : IVec S_ 1 := andi main_v23 main_v28
  let main_v30 : IVec S1x3200000 32 := (extractStridedSlice S1x3200000 ![0, 0] · slices_S2x3200000_S1x3200000_0_0) main_arg1
  let main_v31 : IVec S3200000 32 := shapeCast S3200000 main_v30 shapeCasts_S1x3200000_S3200000
  let main_c_10 : IVec S_ 32 := constantI S_ 32 100000#32
  let main_v32 : IVec S3200000 32 := broadcastInDim S3200000 ![] bcast_S_S3200000 main_c_10
  let main_v33 : IVec S3200000 1 := cmpi .slt main_v31 main_v32
  let main_c_11 : IVec S_ 1 := constantI S_ 1 1#1
  fn_part2 (F := F) main_v29 main_v33 main_c_11

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg1 main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S1 : Shape := ⟨1, ![1]⟩
abbrev S1x1 : Shape := ⟨2, ![1, 1]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩
abbrev S5000 : Shape := ⟨1, ![5000]⟩

abbrev nBuf : Space → Nat
  | .hbm => 91
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S1, .i32⟩
  | .hbm, ⟨38, _⟩ => ⟨S_, .i32⟩
  | .hbm, ⟨39, _⟩ => ⟨S3300000x1, .i32⟩
  | .hbm, ⟨40, _⟩ => ⟨S3300000x1, .i1⟩
  | .hbm, ⟨41, _⟩ => ⟨S1x1, .i32⟩
  | .hbm, ⟨42, _⟩ => ⟨S3300000x1, .i32⟩
  | .hbm, ⟨43, _⟩ => ⟨S3300000x1, .i1⟩
  | .hbm, ⟨44, _⟩ => ⟨S3300000x1, .i1⟩
  | .hbm, ⟨45, _⟩ => ⟨S_, .i1⟩
  | .hbm, ⟨46, _⟩ => ⟨S3300000, .i1⟩
  | .hbm, ⟨47, _⟩ => ⟨S3300000x16, .f32⟩
  | .hbm, ⟨48, _⟩ => ⟨S3300000x16, .i1⟩
  | .hbm, ⟨49, _⟩ => ⟨S_, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S100000x1, .f32⟩
  | .hbm, ⟨57, _⟩ => ⟨S1x16, .f32⟩
  | .hbm, ⟨58, _⟩ => ⟨S100000x16, .f32⟩
  | .hbm, ⟨59, _⟩ => ⟨S100000x1, .f32⟩
  | .hbm, ⟨60, _⟩ => ⟨S100000x2, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S1, .i32⟩
  | .hbm, ⟨70, _⟩ => ⟨S_, .i32⟩
  | .hbm, ⟨71, _⟩ => ⟨S3300000x1, .i32⟩
  | .hbm, ⟨72, _⟩ => ⟨S3300000x1, .i1⟩
  | .hbm, ⟨73, _⟩ => ⟨S1x1, .i32⟩
  | .hbm, ⟨74, _⟩ => ⟨S3300000x1, .i32⟩
  | .hbm, ⟨75, _⟩ => ⟨S3300000x1, .i1⟩
  | .hbm, ⟨76, _⟩ => ⟨S3300000x1, .i1⟩
  | .hbm, ⟨77, _⟩ => ⟨S_, .i1⟩
  | .hbm, ⟨78, _⟩ => ⟨S3300000, .i1⟩
  | .hbm, ⟨79, _⟩ => ⟨S3300000x2, .f32⟩
  | .hbm, ⟨80, _⟩ => ⟨S3300000x2, .i1⟩
  | .hbm, ⟨81, _⟩ => ⟨S_, .f32⟩
  | .hbm, ⟨82, _⟩ => ⟨S3300000x2, .f32⟩
  | .hbm, ⟨83, _⟩ => ⟨S3300000x2, .f32⟩
  | .hbm, ⟨84, _⟩ => ⟨S_, .f32⟩
  | .hbm, ⟨85, _⟩ => ⟨S100000x2, .f32⟩
  | .hbm, ⟨86, _⟩ => ⟨S3300000x1, .i32⟩
  | .hbm, ⟨87, _⟩ => ⟨S100000x2, .f32⟩
  | .hbm, ⟨88, _⟩ => ⟨S100000x1, .f32⟩
  | .hbm, ⟨89, _⟩ => ⟨S1x2, .f32⟩
  | .hbm, ⟨90, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x2, .f32⟩
  | .local _ .vmem, ⟨17, _⟩ => ⟨S5000x1, .f32⟩
  | .local _ .vmem, ⟨18, _⟩ => ⟨S5000x1, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v26 : Ref sig .tc := ⟨.hbm, 83, rfl⟩
abbrev main_cst_4 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S3300000_S3300000x2_0 : S3300000.BroadcastsInDim S3300000x2 (![0] : Fin 1 → Fin S3300000x2.rank)
  bcast_S_S3300000x2 : S_.BroadcastsInDim S3300000x2 (![] : Fin 0 → Fin S3300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S100000x2.size a
  hwx3_3 : ∀ i : grid3.Coords, EltTy.bits .f32 = 32 ∨ (Rect.block (s := S100000x2) S5000x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x2, .f32⟩
  | 5 => ⟨S2, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x128, .f32⟩

abbrev hbmTy0_1 (i : Nat) : BufTy := match i % 128 with
  | 0 => ⟨S100000x2, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x2, .f32⟩
  | 8 => ⟨S100000x2, .f32⟩
  | 9 => ⟨S100000x2, .f32⟩
  | 10 => ⟨S_, .f32⟩
  | 11 => ⟨S100000, .f32⟩
  | 12 => ⟨S100000x1, .f32⟩
  | 13 => ⟨S100000x1, .f32⟩
  | 14 => ⟨S100000x2, .f32⟩
  | 15 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.Reals.lean ====
/-
  Real numbers among the extended reals. A value of the idealized programs is an extended real; the laws that
  rearrange a sum of products (a factor moved across a sum) hold where every term is a real number, and fail at ±∞.
-/
import Idealize.ShloMosaic.PureOps.Ideal

namespace Cert.Reals

/-- A real number among the extended reals. -/
def IsReal (x : EReal) : Prop := ∃ r : ℝ, x = (r : EReal)

end Cert.Reals
-- ==== Proof.Terms.lean ====
/-
  The idealized kernel program's value, named piece by piece.

  A two-layer graph convolution over N = 100000 nodes and E = 3200000 edges plus one self-loop per node
  (E + N = 3300000 index entries). With deg[d] the number of index entries whose destination is d and
  dinv = deg^(-1/2) where deg > 0 (and 0 elsewhere), one layer with weights w and bias b sends node features x to

      out[d] = dinv[d] · Σ_{(s, d)} dinv[s] · (x·w)[s]  +  b ,

  computed as: rows of x·w scaled by dinv (a pallas_call), the scaled rows taken at the source ids (rows whose id is out
  of range read as the NaN filler), summed into their destination rows (an id out of range names no row), then
  scaled by dinv[d] and shifted by b inside the next pallas_call, which also applies max(·, 0) after layer one and
  the row-wise log-softmax after layer two.

  The host stretches are stated here as whole-array functions that mirror the printed operations one for one; the
  four pallas_calls as index-by-index functions on the extended reals.
-/
import proofs.«403457_j50019189129603_3_alg».proof.Proof.Gen.KernelIdeal
import proofs.«403457_j50019189129603_3_alg».proof.Proof.Reals
import Idealize.ShloMosaic.PureOps.Ideal
import Idealize.ShloMosaic.Lib.ValueIdx

noncomputable section

open scoped BigOperators

namespace Cert.KernelIdeal.Hand

open Idealize.ShloMosaic Idealize.ShloMosaic.ValueIdx Cert.KernelIdeal Cert.KernelIdeal.Gen

/-! ## Host stretches, at any float family -/

section Host
variable {F : FTy → Type} [FloatOps F]

/-- Row 0 of the edge list followed by the node ids 0 … N-1: the source of every edge and self-loop. -/
def srcVec (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- Row 1 of the edge list followed by the node ids: the destination of every edge and self-loop. -/
def dstVec (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- An index vector as the one-column array a gather or a scatter takes. -/
def idxCol (v : IVec S3300000 32) : IVec S3300000x1 32 := broadcastInDim S3300000x1 ![0] bcast_S3300000_S3300000x1_0 v

/-- deg: ones summed into their destination node. -/
def degVec (ei : IVec S2x3200000 32) : FVec F S100000 .f32 :=
  Host.scatterAdd scatter_S100000_S3300000x1_S3300000_n_0_0_1
    (broadcastInDim S100000 ![] bcast_S_S100000 (constant S_ .f32 0x00000000#32))
    (idxCol (dstVec ei))
    (broadcastInDim S3300000 ![] bcast_S_S3300000 (constant S_ .f32 0x3F800000#32))

/-- dinv: deg^(-1/2) where deg > 0, else 0. -/
def dinvVec (ei : IVec S2x3200000 32) : FVec F S100000 .f32 :=
  select (cmpf (F := F) .ogt (degVec ei) (broadcastInDim S100000 ![] bcast_S_S100000 (constant S_ .f32 0x00000000#32)))
    (Host.rsqrt (degVec ei))
    (broadcastInDim S100000 ![] bcast_S_S100000 (id (constant S_ .f32 0x00000000#32)))

/-- dinv as the one-column array the pallas_calls take. -/
def dinvCol (ei : IVec S2x3200000 32) : FVec F S100000x1 .f32 := shapeCast S100000x1 (dinvVec (F := F) ei) shapeCasts_S100000_S100000x1

/-- A negative id counts from the end: id + N where id < 0. -/
def wrapVec (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- Which entries of an id column lie in 0 … N-1. -/
def inRange (col : IVec S3300000x1 32) : IVec S3300000 1 :=
  Host.reduce IntOp.andi
    (andi (cmpi .sge col (broadcastInDim S3300000x1 ![] bcast_S_S3300000x1 (constantI S_ 32 0#32)))
          (cmpi .sle col (broadcastInDim S3300000x1 ![0, 1] bcast_S1x1_S3300000x1_0_1 (broadcastInDim S1x1 ![1] bcast_S1_S1x1_1 (constantI S1 32 99999#32)))))
    (constantI S_ 1 1#1) reducesTo_S3300000x1_S3300000_d1 h_S_

/-- Rows of a 16-column array taken at the source ids; a row whose id is out of range is the NaN filler. -/
def take16 (h : FVec F S100000x16 .f32) (v : IVec S3300000 32) : FVec F S3300000x16 .f32 :=
  select (broadcastInDim S3300000x16 ![0] bcast_S3300000_S3300000x16_0 (inRange (idxCol (wrapVec v))))
    (Host.gather gather_S100000x16_S3300000x1_S3300000x16_1_0_n_n_0_1_116 h (idxCol (wrapVec v)))
    (broadcastInDim S3300000x16 ![] bcast_S_S3300000x16 (constant S_ .f32 0x7FC00000#32))

/-- The same for a 2-column array. -/
def take2 (h : FVec F S100000x2 .f32) (v : IVec S3300000 32) : FVec F S3300000x2 .f32 :=
  select (broadcastInDim S3300000x2 ![0] bcast_S3300000_S3300000x2_0 (inRange (idxCol (wrapVec v))))
    (Host.gather gather_S100000x2_S3300000x1_S3300000x2_1_0_n_n_0_1_12 h (idxCol (wrapVec v)))
    (broadcastInDim S3300000x2 ![] bcast_S_S3300000x2 (constant S_ .f32 0x7FC00000#32))

/-- Rows summed into their destination rows, 16 columns. -/
def seg16 (u : FVec F S3300000x16 .f32) (d : IVec S3300000 32) : FVec F S100000x16 .f32 :=
  Host.scatterAdd scatter_S100000x16_S3300000x1_S3300000x16_1_0_0_1
    (broadcastInDim S100000x16 ![] bcast_S_S100000x16 (constant S_ .f32 0x00000000#32)) (idxCol d) u

/-- Rows summed into their destination rows, 2 columns. -/
def seg2 (u : FVec F S3300000x2 .f32) (d : IVec S3300000 32) : FVec F S100000x2 .f32 :=
  Host.scatterAdd scatter_S100000x2_S3300000x1_S3300000x2_1_0_0_1
    (broadcastInDim S100000x2 ![] bcast_S_S100000x2 (constant S_ .f32 0x00000000#32)) (idxCol d) u

end Host

/-! ## The four pallas_calls, index by index on the extended reals -/

/-- First pallas_call: (x·w)[i, j] · dinv[i]. -/
def xwScaled (x : S100000x128.Idx → EReal) (w : S128x16.Idx → EReal) (d : S100000x1.Idx → EReal) : S100000x16.Idx → EReal :=
  fun i => (∑ l : Fin 128, x (ix2 (i 0) l) * w (ix2 l (i 1))) * d (ix2 (i 0) (0 : Fin 1))

/-- Second pallas_call: max(a[i, j] · dinv[i] + b[j], 0). -/
def biasRelu (a : S100000x16.Idx → EReal) (d : S100000x1.Idx → EReal) (b : S1x16.Idx → EReal) : S100000x16.Idx → EReal :=
  fun i => max (a i * d (ix2 (i 0) (0 : Fin 1)) + b (ix2 (0 : Fin 1) (i 1))) (0 : EReal)

/-- Third pallas_call: (h·w)[i, j] · dinv[i]. -/
def hwScaled (h : S100000x16.Idx → EReal) (w : S16x2.Idx → EReal) (d : S100000x1.Idx → EReal) : S100000x2.Idx → EReal :=
  fun i => (∑ l : Fin 16, h (ix2 (i 0) l) * w (ix2 l (i 1))) * d (ix2 (i 0) (0 : Fin 1))

/-- The row-wise log-softmax of a 2-column array, as both programs spell it: with m the larger of −∞ and the row's
    maximum, (v − m) − log Σ exp (v − m). -/
def logSoftmaxRows (v : S100000x2.Idx → EReal) : S100000x2.Idx → EReal :=
  fun i =>
    let mx : EReal := max (⊥ : EReal) ((Finset.univ : Finset (Fin 2)).fold max (⊥ : EReal) (fun k => v (ix2 (i 0) k)))
    (v i - mx) - Ideal.log (∑ k : Fin 2, Ideal.exp (v (ix2 (i 0) k) - mx))

/-- Fourth pallas_call: the log-softmax of a[i, j] · dinv[i] + b[j] along j. -/
def biasLogSoftmax (a : S100000x2.Idx → EReal) (d : S100000x1.Idx → EReal) (b : S1x2.Idx → EReal) : S100000x2.Idx → EReal :=
  logSoftmaxRows (fun i => a i * d (ix2 (i 0) (0 : Fin 1)) + b (ix2 (0 : Fin 1) (i 1)))

/-! ## The whole program -/

/-- Layer one's result, after its max(·, 0): a function of x, the edge list, W1 and b1. -/
def layer1 (x0 : S100000x128.Idx → EReal) (x1 : IVec S2x3200000 32) (x2 : S128x16.Idx → EReal) (x3 : S16.Idx → EReal) : S100000x16.Idx → EReal :=
  biasRelu (seg16 (F := Ideal) (take16 (F := Ideal) (xwScaled x0 x2 (dinvCol (F := Ideal) x1)) (srcVec x1)) (dstVec x1))
    (dinvCol (F := Ideal) x1) (shapeCast S1x16 (α := EReal) x3 shapeCasts_S16_S1x16)

/-- The program's result: layer two over layer one's, then the log-softmax. -/
def out (x0 : S100000x128.Idx → EReal) (x1 : IVec S2x3200000 32) (x2 : S128x16.Idx → EReal) (x3 : S16.Idx → EReal)
    (x4 : S16x2.Idx → EReal) (x5 : S2.Idx → EReal) : S100000x2.Idx → EReal :=
  biasLogSoftmax (seg2 (F := Ideal) (take2 (F := Ideal) (hwScaled (layer1 x0 x1 x2 x3) x4 (dinvCol (F := Ideal) x1)) (srcVec x1)) (dstVec x1))
    (dinvCol (F := Ideal) x1) (shapeCast S1x2 (α := EReal) x5 shapeCasts_S2_S1x2)

end Cert.KernelIdeal.Hand

end
-- ==== Proof.Region0.lean ====
/-
  The first pallas_call's output array after its 20 grid points. Point t reads rows 5000·t … 5000·t + 4999 of x and of the
  dinv column and all of W1, and writes the same rows of the output: (x·W1)[i, j] · dinv[i]. The 20 row blocks tile the
  100000 rows, so the array ends as that one function of the arrays the region finds.
-/
import proofs.«403457_j50019189129603_3_alg».proof.Proof.Gen.KernelIdeal.Frame
import proofs.«403457_j50019189129603_3_alg».proof.Proof.Terms
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen Cert.Reals

namespace Region0

/-! ## The block product at an index -/

/-- The left operand's row coordinate under the contraction is the output's row. -/
theorem lhs_xw_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- The left operand's column coordinate is the contraction's coordinate. -/
theorem lhs_xw_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- The right operand's row coordinate is the contraction's coordinate. -/
theorem rhs_xw_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- The right operand's column coordinate is the output's column. -/
theorem rhs_xw_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The block product into a zero accumulator, at row p and column q: the sum over the 128 shared coordinates of
    the products of row p of the left block and column q of the right block. -/
theorem xw_block_apply (a : FVec Ideal S5000x128 .bf16) (b : FVec Ideal S128x16 .bf16) (p : Fin 5000) (q : Fin 16) :
    matmul dot_S5000x128_S128x16_S5000x16_1_0_0_1_n_n none a b (constant (F := Ideal) S5000x16 .f32 0x00000000#32) (ix2 p q)
      = ∑ l : Fin 128, a (ix2 p l) * b (ix2 l q) := by
  simp only [matmul]
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-! ## The scaling column at an index -/

/-- The scaling column cast to its own shape and spread over the 16 columns, at row p and column q: the column's entry in row p. -/
theorem col16_apply (d : S5000x1.Idx → EReal) (p : Fin 5000) (q : Fin 16) :
    broadcastTo S5000x16 (shapeCast S5000x1 d shapeCasts_S5000x1_S5000x1) broadcasts_S5000x1_S5000x16 (ix2 p q)
      = d (ix2 p (0 : Fin 1)) := by
  rw [shapeCast_self]
  refine broadcastTo_apply d broadcasts_S5000x1_S5000x16 (ix2 p q) (ix2 p (0 : Fin 1)) fun a => ?_
  match a with
  | ⟨0, _⟩ => rfl
  | ⟨1, _⟩ => rfl

/-! ## What the body stores, at an index -/

/-- The body's stored value at row p and column q of a block: the product of row p of the x block with column q of
    W1, times the scaling column's entry in row p. The narrowing of both operands is the identity on extended reals. -/
theorem xw_pay_apply (x0 : Vec Ideal S5000x128 .f32) (x1 : Vec Ideal S128x16 .f32) (x2 : Vec Ideal S5000x1 .f32) (p : Fin 5000) (q : Fin 16) :
    k0_pay1 (F := Ideal) x0 x1 x2 (ix2 p q) = (∑ l : Fin 128, x0 (ix2 p l) * x1 (ix2 l q)) * x2 (ix2 p (0 : Fin 1)) := by
  unfold k0_pay1
  show matmul dot_S5000x128_S128x16_S5000x16_1_0_0_1_n_n none (truncf .bf16 x0 bitsLt_bf16_f32) (truncf .bf16 x1 bitsLt_bf16_f32) (constant (F := Ideal) S5000x16 .f32 0x00000000#32) (ix2 p q)
      * broadcastTo S5000x16 (shapeCast S5000x1 x2 shapeCasts_S5000x1_S5000x1) broadcasts_S5000x1_S5000x16 (ix2 p q) = _
  rw [xw_block_apply, col16_apply]
  rfl

/-! ## What one grid point writes back -/

theorem zero2 : (![0, 0] : Fin 2 → Nat) = fun _ => 0 := funext fun a => by fin_cases a <;> rfl

/-- The block indices at point t, decided over the 20 points: the x rows, the scaling column and the output move
    together down the rows (block t of each), and W1 stays whole. -/
theorem idx_rows0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Blocks that hold rows 5000·n … 5000·n + 4999 of x and of the scaling column, and all of W1, give at row p and
    column q of the stored block the whole-array function at row 5000·n + p and column q. -/
theorem xw_rows (X : S100000x128.Idx → EReal) (W : S128x16.Idx → EReal) (D : S100000x1.Idx → EReal)
    (x0 : Vec Ideal S5000x128 .f32) (x1 : Vec Ideal S128x16 .f32) (x2 : Vec Ideal S5000x1 .f32) (n : Nat)
    (h0 : ∀ (p : Fin 5000) (l : Fin 128) (r : Fin 100000), r.val = n * 5000 + p.val → x0 (ix2 p l) = X (ix2 r l))
    (h1 : ∀ (l : Fin 128) (q : Fin 16), x1 (ix2 l q) = W (ix2 l q))
    (h2 : ∀ (p : Fin 5000) (r : Fin 100000), r.val = n * 5000 + p.val → x2 (ix2 p (0 : Fin 1)) = D (ix2 r (0 : Fin 1)))
    (j : S5000x16.Idx) (i : S100000x16.Idx) (hi0 : (i 0).val = n * 5000 + (j 0).val) (hi1 : (i 1).val = (j 1).val) :
    k0_pay1 (F := Ideal) x0 x1 x2 j = xwScaled X W D i := by
  obtain ⟨p, q, rfl⟩ : ∃ (p : Fin 5000) (q : Fin 16), j = ix2 p q := ⟨j 0, j 1, eq_ix2 j⟩
  obtain ⟨r, s, rfl⟩ : ∃ (r : Fin 100000) (s : Fin 16), i = ix2 r s := ⟨i 0, i 1, eq_ix2 i⟩
  have hr : r.val = n * 5000 + p.val := hi0
  have hs : s = q := Fin.ext hi1
  subst hs
  rw [xw_pay_apply]
  show _ = (∑ l : Fin 128, X (ix2 r l) * W (ix2 l s)) * D (ix2 r (0 : Fin 1))
  rw [h2 p r hr]
  congr 1
  exact Finset.sum_congr rfl fun l _ => by rw [h0 p l r hr, h1 l s]

/-- What point t writes back is block t of `xwScaled` of the arrays the region finds. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (xwScaled (V c main_arg0) (V c main_arg2) (V c main_v15)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x16) zero2, View.ld_unit_zero (S := S5000x1) zero2]
  obtain ⟨e00, e01, e10, e11, e20, e21, e30, e31⟩ := idx_rows0 t
  funext j
  refine xw_rows (V c main_arg0) (V c main_arg2) (V c main_v15) (iblk0 V c 0 t) (iblk0 V c 1 t) (iblk0 V c 2 t) t.val ?_ ?_ ?_ j (((cfg0.win 3).blk t).view.emb j) ?_ ?_
  · intro p l r hr
    show V c main_arg0 (((cfg0.win 0).blk t).view.emb (ix2 p l)) = V c main_arg0 (ix2 r l)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 128 + 1 * l.val = l.val; omega
  · intro l q
    show V c main_arg2 (((cfg0.win 1).blk t).view.emb (ix2 l q)) = V c main_arg2 (ix2 l q)
    refine congrArg (V c main_arg2) (funext fun a => Fin.ext ?_)
    match a with
    | ⟨0, _⟩ => show win0_1.index t (0 : Fin 2) * 128 + 1 * l.val = l.val; omega
    | ⟨1, _⟩ => show win0_1.index t (1 : Fin 2) * 16 + 1 * q.val = q.val; omega
  · intro p r hr
    show V c main_v15 (((cfg0.win 2).blk t).view.emb (ix2 p (0 : Fin 1))) = V c main_v15 (ix2 r (0 : Fin 1))
    refine congrArg (V c main_v15) (funext fun a => Fin.ext ?_)
    match a with
    | ⟨0, _⟩ => show win0_2.index t (0 : Fin 2) * 5000 + 1 * p.val = r.val; omega
    | ⟨1, _⟩ => show win0_2.index t (1 : Fin 2) * 1 + 1 * (0 : Fin 1).val = (0 : Fin 1).val; omega
  · show win0_3.index t (0 : Fin 2) * 5000 + 1 * (j 0).val = t.val * 5000 + (j 0).val; omega
  · show win0_3.index t (1 : Fin 2) * 16 + 1 * (j 1).val = (j 1).val; omega

/-! ## The 20 row blocks tile the array -/

/-- An index of the array is in point t's block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- Row r lies in the block of point r / 5000, and every column lies in every block. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31⟩ := idx_rows0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

end Region0

/-- Region 0's output array: `xwScaled` of the three arrays the region finds at its entry. -/
theorem region0_out (V : (c : Dev nD) → (b : Ref sig .tc) → Buf (Elt Ideal) ((c : Thread nD τ).loc b)) (c : Dev nD) :
    (dat0 (F := Ideal) V c).arrAt 3 cfg0.N = xwScaled (V c main_arg0) (V c main_arg2) (V c main_v15) := by
  exact (dat0 (F := Ideal) V c).arrAt_eq_of_cover 3 (xwScaled (V c main_arg0) (V c main_arg2) (V c main_v15))
    (fun t _ => Region0.flushed0_eq V c t) Region0.cover0

end Cert.KernelIdeal.Hand

end
-- ==== Proof.Region1.lean ====
/-
  The second pallas_call's output array after its 20 grid points. Point t reads rows 5000·t … 5000·t + 4999 of the
  aggregated array and of the dinv column and the one bias row, and writes the same rows of the output:
  max(a[i, j] · dinv[i] + b[j], 0). The 20 row blocks tile the 100000 rows.
-/
import proofs.«403457_j50019189129603_3_alg».proof.Proof.Gen.KernelIdeal.Frame
import proofs.«403457_j50019189129603_3_alg».proof.Proof.Terms
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen Cert.Reals

namespace Region1

/-- The zero offsets of a whole-block access. -/
theorem zeroOffsets1 : (![0, 0] : Fin 2 → Nat) = fun _ => 0 := funext fun a => by fin_cases a <;> rfl

/-- The body's stored value at row p, column q of a block: the block's element times the row's dinv plus the column's
    bias, cut off below at 0. -/
theorem biasReluBlock_apply (x0 : Vec Ideal S5000x16 .f32) (x1 : Vec Ideal S5000x1 .f32) (x2 : Vec Ideal S1x16 .f32)
    (p : Fin 5000) (q : Fin 16) :
    k1_pay1 (F := Ideal) x0 x1 x2 (ix2 p q)
      = max (x0 (ix2 p q) * x1 (ix2 p (0 : Fin 1)) + x2 (ix2 (0 : Fin 1) q)) (0 : EReal) := by
  unfold k1_pay1
  rw [maximumf_apply, addf_apply, mulf_apply, broadcast_apply, shapeCast_self, shapeCast_self, shapeCast_self]
  rw [broadcastTo_apply x1 broadcasts_S5000x1_S5000x16 (ix2 p q) (ix2 p (0 : Fin 1)) (fun a => by
      match a with
      | ⟨0, _⟩ => rfl
      | ⟨1, _⟩ => rfl)]
  rw [broadcastTo_apply x2 broadcasts_S1x16_S5000x16 (ix2 p q) (ix2 (0 : Fin 1) q) (fun a => by
      match a with
      | ⟨0, _⟩ => rfl
      | ⟨1, _⟩ => rfl)]
  rw [show (Scalar.ofBits .f32 0x00000000#32 : Ideal .f32) = (0 : EReal) from Ideal.ofBits_zero_f32]

/-- A block whose rows are rows 5000·n … 5000·n + 4999 of the three arrays: the body's stored value at (p, q) is
    `biasRelu` of the arrays at row 5000·n + p, column q. -/
theorem biasReluBlock_eq (a : S100000x16.Idx → EReal) (d : S100000x1.Idx → EReal) (b : S1x16.Idx → EReal)
    (x0 : Vec Ideal S5000x16 .f32) (x1 : Vec Ideal S5000x1 .f32) (x2 : Vec Ideal S1x16 .f32) (n : Nat)
    (h0 : ∀ (p : Fin 5000) (q : Fin 16) (i : S100000x16.Idx), (i 0).val = n * 5000 + p.val → (i 1).val = q.val → x0 (ix2 p q) = a i)
    (h1 : ∀ (p : Fin 5000) (i : S100000x1.Idx), (i 0).val = n * 5000 + p.val → x1 (ix2 p (0 : Fin 1)) = d i)
    (h2 : ∀ (q : Fin 16) (i : S1x16.Idx), (i 1).val = q.val → x2 (ix2 (0 : Fin 1) q) = b i)
    (p : Fin 5000) (q : Fin 16) (i : S100000x16.Idx) (hi0 : (i 0).val = n * 5000 + p.val) (hi1 : (i 1).val = q.val) :
    k1_pay1 (F := Ideal) x0 x1 x2 (ix2 p q) = biasRelu a d b i := by
  rw [biasReluBlock_apply, h0 p q i hi0 hi1, h1 p (ix2 (i 0) (0 : Fin 1)) hi0, h2 q (ix2 (0 : Fin 1) (i 1)) hi1]
  rfl

/-- The printed index maps over the 20 points: the aggregated array's and the dinv column's row blocks move with the
    output's, the bias row stays, and the output's row-block index is the point itself. -/
theorem blockIndices1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The aggregated array's block at point t holds its rows 5000·t … 5000·t + 4999. -/
theorem aggBlock1_apply (p : Fin 5000) (q : Fin 16) (i : S100000x16.Idx)
    (hi0 : (i 0).val = t.val * 5000 + p.val) (hi1 : (i 1).val = q.val) :
    (iblk1 (F := Ideal) V c 0 t : Vec Ideal S5000x16 .f32) (ix2 p q) = (V c main_v20 : S100000x16.Idx → EReal) i := by
  obtain ⟨e0, e1, -⟩ := blockIndices1 t
  unfold iblk1
  rw [View.read_apply]
  show (V c main_v20 : S100000x16.Idx → EReal) _ = V c main_v20 i
  congr 1
  funext a
  apply Fin.ext
  match a with
  | ⟨0, _⟩ => show win1_0.index t (0 : Fin 2) * 5000 + 1 * p.val = (i 0).val; rw [e0, hi0]; omega
  | ⟨1, _⟩ => show win1_0.index t (1 : Fin 2) * 16 + 1 * q.val = (i 1).val; rw [e1, hi1]; omega

/-- The dinv column's block at point t holds its rows 5000·t … 5000·t + 4999. -/
theorem dinvBlock1_apply (p : Fin 5000) (i : S100000x1.Idx) (hi0 : (i 0).val = t.val * 5000 + p.val) :
    (iblk1 (F := Ideal) V c 1 t : Vec Ideal S5000x1 .f32) (ix2 p (0 : Fin 1)) = (V c main_v21 : S100000x1.Idx → EReal) i := by
  obtain ⟨-, -, e2, e3, -⟩ := blockIndices1 t
  have hi1 : (i 1).val = 0 := by have h : (i 1).val < 1 := (i 1).isLt; omega
  unfold iblk1
  rw [View.read_apply]
  show (V c main_v21 : S100000x1.Idx → EReal) _ = V c main_v21 i
  congr 1
  funext a
  apply Fin.ext
  match a with
  | ⟨0, _⟩ => show win1_1.index t (0 : Fin 2) * 5000 + 1 * p.val = (i 0).val; rw [e2, hi0]; omega
  | ⟨1, _⟩ => show win1_1.index t (1 : Fin 2) * 1 + 1 * 0 = (i 1).val; rw [e3, hi1]

/-- The bias row's block at every point is the whole row. -/
theorem biasBlock1_apply (q : Fin 16) (i : S1x16.Idx) (hi1 : (i 1).val = q.val) :
    (iblk1 (F := Ideal) V c 2 t : Vec Ideal S1x16 .f32) (ix2 (0 : Fin 1) q) = (V c main_v22 : S1x16.Idx → EReal) i := by
  obtain ⟨-, -, -, -, e4, e5, -⟩ := blockIndices1 t
  have hi0 : (i 0).val = 0 := by have h : (i 0).val < 1 := (i 0).isLt; omega
  unfold iblk1
  rw [View.read_apply]
  show (V c main_v22 : S1x16.Idx → EReal) _ = V c main_v22 i
  congr 1
  funext a
  apply Fin.ext
  match a with
  | ⟨0, _⟩ => show win1_2.index t (0 : Fin 2) * 1 + 1 * 0 = (i 0).val; rw [e4, hi0]
  | ⟨1, _⟩ => show win1_2.index t (1 : Fin 2) * 16 + 1 * q.val = (i 1).val; rw [e5, hi1]; omega

end Blocks

/-- What point t writes back is block t of `biasRelu` of the three arrays. -/
theorem flushed1_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (biasRelu (V c main_v20) (V c main_v21) (V c main_v22)) := by
  show (cfg1.win 3).cut (grid1.coords t) ((dat1 V c).after 3 t) = _
  rw [after1_3]
  unfold out1_3
  rw [View.canon_unit_zero zeroOffsets1]
  simp only [View.ld_unit_zero (S := S5000x16) zeroOffsets1, View.ld_unit_zero (S := S5000x1) zeroOffsets1, View.ld_unit_zero (S := S1x16) zeroOffsets1]
  funext j
  obtain ⟨-, -, -, -, -, -, e6, e7⟩ := blockIndices1 t
  have hj : (win1 3).xinj (grid1.coords t) j = ix2 (⟨(j 0).val, (j 0).isLt⟩ : Fin 5000) (⟨(j 1).val, (j 1).isLt⟩ : Fin 16) := by
    funext a
    match a with
    | ⟨0, _⟩ => rfl
    | ⟨1, _⟩ => rfl
  show k1_pay1 (F := Ideal) (iblk1 V c 0 t) (iblk1 V c 1 t) (iblk1 V c 2 t) ((win1 3).xinj (grid1.coords t) j)
    = biasRelu (V c main_v20) (V c main_v21) (V c main_v22) (((cfg1.win 3).blk t).view.emb j)
  rw [hj]
  refine biasReluBlock_eq (V c main_v20) (V c main_v21) (V c main_v22) (iblk1 V c 0 t) (iblk1 V c 1 t) (iblk1 V c 2 t) t.val
    (aggBlock1_apply V c t) (dinvBlock1_apply V c t) (biasBlock1_apply V c t) _ _ _ ?_ ?_
  · show win1_3.index t (0 : Fin 2) * 5000 + 1 * (j 0).val = t.val * 5000 + (j 0).val
    rw [e6]; omega
  · show win1_3.index t (1 : Fin 2) * 16 + 1 * (j 1).val = (j 1).val
    rw [e7]; omega

/-- An index of the output array is in point t's block iff each coordinate is in the block's range on its axis. -/
theorem mem_block1 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v23).slice (win1_3.rect t)).set ↔ _
  rw [View.set_slice_whole, Rect.mem_set_unit]
  exact Iff.rfl

/-- Every row r lies in the block of point r / 5000: the 20 row blocks tile the 100000 rows. -/
theorem covered1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := rfl
  let t : Fin cfg1.N := ⟨(i 0).val / 5000, by rw [hN]; omega⟩
  obtain ⟨-, -, -, -, -, -, e6, e7⟩ := blockIndices1 t
  have ht : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 16 ≤ (i 1).val ∧ (i 1).val < win1_3.index t (1 : Fin 2) * 16 + 16; rw [e7]; omega

end Region1

/-- Region 1's output array: `biasRelu` of the three arrays the region finds at its entry. -/
theorem region1_out (V : (c : Dev nD) → (b : Ref sig .tc) → Buf (Elt Ideal) ((c : Thread nD τ).loc b)) (c : Dev nD) :
    (dat1 (F := Ideal) V c).arrAt 3 cfg1.N = biasRelu (V c main_v20) (V c main_v21) (V c main_v22) :=
  (dat1 (F := Ideal) V c).arrAt_eq_of_cover 3 (biasRelu (V c main_v20) (V c main_v21) (V c main_v22))
    (fun t _ => Region1.flushed1_eq V c t) Region1.covered1

end Cert.KernelIdeal.Hand

end
-- ==== Proof.Region2.lean ====
/-
  The third pallas_call's output array after its 20 grid points: as the first, with the 16-column hidden features for x and
  W2 (16 × 2) for W1: (h·W2)[i, j] · dinv[i].
-/
import proofs.«403457_j50019189129603_3_alg».proof.Proof.Gen.KernelIdeal.Frame
import proofs.«403457_j50019189129603_3_alg».proof.Proof.Terms
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen Cert.Reals

namespace Region2

/-! ## The block product at an index -/

/-- The left operand's row coordinate under the contraction is the output's row. -/
theorem lhs_hw_0 (i : S5000x2.Idx) (q : dot_S5000x16_S16x2_S5000x2_1_0_0_1_n_n.contr.Idx) :
    (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
/-- The left operand's column coordinate is the contraction's coordinate. -/
theorem lhs_hw_1 (i : S5000x2.Idx) (q : dot_S5000x16_S16x2_S5000x2_1_0_0_1_n_n.contr.Idx) :
    (dot_S5000x16_S16x2_S5000x2_1_0_0_1_n_n.lhsIdx i q 1).val = (q ⟨0, by decide⟩).val :=
  dot_S5000x16_S16x2_S5000x2_1_0_0_1_n_n.lhsIdx_val_of_single rfl i q
/-- The right operand's row coordinate is the contraction's coordinate. -/
theorem rhs_hw_0 (i : S5000x2.Idx) (q : dot_S5000x16_S16x2_S5000x2_1_0_0_1_n_n.contr.Idx) :
    (dot_S5000x16_S16x2_S5000x2_1_0_0_1_n_n.rhsIdx i q 0).val = (q ⟨0, by decide⟩).val :=
  dot_S5000x16_S16x2_S5000x2_1_0_0_1_n_n.rhsIdx_val_of_single rfl i q
/-- The right operand's column coordinate is the output's column. -/
theorem rhs_hw_1 (i : S5000x2.Idx) (q : dot_S5000x16_S16x2_S5000x2_1_0_0_1_n_n.contr.Idx) :
    (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- The block product into a zero accumulator, at row p and column q: the sum over the 16 shared coordinates of
    the products of row p of the left block and column q of the right block. -/
theorem hw_block_apply (a : FVec Ideal S5000x16 .bf16) (b : FVec Ideal S16x2 .bf16) (p : Fin 5000) (q : Fin 2) :
    matmul dot_S5000x16_S16x2_S5000x2_1_0_0_1_n_n none a b (constant (F := Ideal) S5000x2 .f32 0x00000000#32) (ix2 p q)
      = ∑ l : Fin 16, a (ix2 p l) * b (ix2 l q) := by
  simp only [matmul]
  rw [Ideal.matmul_constant_zero_apply, ← Equiv.sum_comp (ValueIdx.contrEquiv1 dot_S5000x16_S16x2_S5000x2_1_0_0_1_n_n 16 rfl rfl).symm]
  refine Finset.sum_congr rfl fun k _ => ?_
  have hk := ValueIdx.contrEquiv1_symm_val dot_S5000x16_S16x2_S5000x2_1_0_0_1_n_n 16 rfl rfl k
  have el : dot_S5000x16_S16x2_S5000x2_1_0_0_1_n_n.lhsIdx (ix2 p q) ((ValueIdx.contrEquiv1 dot_S5000x16_S16x2_S5000x2_1_0_0_1_n_n 16 rfl rfl).symm k) = ix2 p k := funext fun a => Fin.ext (by
    match a with
    | ⟨0, _⟩ => exact lhs_hw_0 _ _
    | ⟨1, _⟩ => exact (lhs_hw_1 _ _).trans hk)
  have er : dot_S5000x16_S16x2_S5000x2_1_0_0_1_n_n.rhsIdx (ix2 p q) ((ValueIdx.contrEquiv1 dot_S5000x16_S16x2_S5000x2_1_0_0_1_n_n 16 rfl rfl).symm k) = ix2 k q := funext fun a => Fin.ext (by
    match a with
    | ⟨0, _⟩ => exact (rhs_hw_0 _ _).trans hk
    | ⟨1, _⟩ => exact rhs_hw_1 _ _)
  rw [el, er]

/-! ## The scaling column at an index -/

/-- The scaling column cast to its own shape and spread over the 2 columns, at row p and column q: the column's entry in row p. -/
theorem col2_apply (d : S5000x1.Idx → EReal) (p : Fin 5000) (q : Fin 2) :
    broadcastTo S5000x2 (shapeCast S5000x1 d shapeCasts_S5000x1_S5000x1) broadcasts_S5000x1_S5000x2 (ix2 p q)
      = d (ix2 p (0 : Fin 1)) := by
  rw [shapeCast_self]
  refine broadcastTo_apply d broadcasts_S5000x1_S5000x2 (ix2 p q) (ix2 p (0 : Fin 1)) fun a => ?_
  match a with
  | ⟨0, _⟩ => rfl
  | ⟨1, _⟩ => rfl

/-! ## What the body stores, at an index -/

/-- The body's stored value at row p and column q of a block: the product of row p of the hidden-feature block with
    column q of W2, times the scaling column's entry in row p. The cast of the features to their own shape and the
    narrowing of both operands are the identity on extended reals. -/
theorem hw_pay_apply (x0 : Vec Ideal S5000x16 .f32) (x1 : Vec Ideal S16x2 .f32) (x2 : Vec Ideal S5000x1 .f32) (p : Fin 5000) (q : Fin 2) :
    k2_pay1 (F := Ideal) x0 x1 x2 (ix2 p q) = (∑ l : Fin 16, x0 (ix2 p l) * x1 (ix2 l q)) * x2 (ix2 p (0 : Fin 1)) := by
  unfold k2_pay1
  show matmul dot_S5000x16_S16x2_S5000x2_1_0_0_1_n_n none (truncf .bf16 (shapeCast S5000x16 x0 shapeCasts_S5000x16_S5000x16) bitsLt_bf16_f32) (truncf .bf16 x1 bitsLt_bf16_f32) (constant (F := Ideal) S5000x2 .f32 0x00000000#32) (ix2 p q)
      * broadcastTo S5000x2 (shapeCast S5000x1 x2 shapeCasts_S5000x1_S5000x1) broadcasts_S5000x1_S5000x2 (ix2 p q) = _
  rw [hw_block_apply, col2_apply, shapeCast_self]
  rfl

/-! ## What one grid point writes back -/

theorem zero2 : (![0, 0] : Fin 2 → Nat) = fun _ => 0 := funext fun a => by fin_cases a <;> rfl

/-- The block indices at point t, decided over the 20 points: the hidden-feature rows, the scaling column and the
    output move together down the rows (block t of each), and W2 stays whole. -/
theorem idx_rows2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Blocks that hold rows 5000·n … 5000·n + 4999 of the hidden features and of the scaling column, and all of W2,
    give at row p and column q of the stored block the whole-array function at row 5000·n + p and column q. -/
theorem hw_rows (H : S100000x16.Idx → EReal) (W : S16x2.Idx → EReal) (D : S100000x1.Idx → EReal)
    (x0 : Vec Ideal S5000x16 .f32) (x1 : Vec Ideal S16x2 .f32) (x2 : Vec Ideal S5000x1 .f32) (n : Nat)
    (h0 : ∀ (p : Fin 5000) (l : Fin 16) (r : Fin 100000), r.val = n * 5000 + p.val → x0 (ix2 p l) = H (ix2 r l))
    (h1 : ∀ (l : Fin 16) (q : Fin 2), x1 (ix2 l q) = W (ix2 l q))
    (h2 : ∀ (p : Fin 5000) (r : Fin 100000), r.val = n * 5000 + p.val → x2 (ix2 p (0 : Fin 1)) = D (ix2 r (0 : Fin 1)))
    (j : S5000x2.Idx) (i : S100000x2.Idx) (hi0 : (i 0).val = n * 5000 + (j 0).val) (hi1 : (i 1).val = (j 1).val) :
    k2_pay1 (F := Ideal) x0 x1 x2 j = hwScaled H W D i := by
  obtain ⟨p, q, rfl⟩ : ∃ (p : Fin 5000) (q : Fin 2), j = ix2 p q := ⟨j 0, j 1, eq_ix2 j⟩
  obtain ⟨r, s, rfl⟩ : ∃ (r : Fin 100000) (s : Fin 2), i = ix2 r s := ⟨i 0, i 1, eq_ix2 i⟩
  have hr : r.val = n * 5000 + p.val := hi0
  have hs : s = q := Fin.ext hi1
  subst hs
  rw [hw_pay_apply]
  show _ = (∑ l : Fin 16, H (ix2 r l) * W (ix2 l s)) * D (ix2 r (0 : Fin 1))
  rw [h2 p r hr]
  congr 1
  exact Finset.sum_congr rfl fun l _ => by rw [h0 p l r hr, h1 l s]

/-- What point t writes back is block t of `hwScaled` of the arrays the region finds. -/
theorem flushed2_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (hwScaled (V c main_v23) (V c main_arg4) (V c main_v24)) := by
  show (cfg2.win 3).cut (grid2.coords t) ((dat2 V c).after 3 t) = _
  rw [after2_3]
  unfold out2_3
  rw [View.canon_unit_zero zero2]
  simp only [View.ld_unit_zero (S := S5000x16) zero2, View.ld_unit_zero (S := S16x2) zero2, View.ld_unit_zero (S := S5000x1) zero2]
  obtain ⟨e00, e01, e10, e11, e20, e21, e30, e31⟩ := idx_rows2 t
  funext j
  refine hw_rows (V c main_v23) (V c main_arg4) (V c main_v24) (iblk2 V c 0 t) (iblk2 V c 1 t) (iblk2 V c 2 t) t.val ?_ ?_ ?_ j (((cfg2.win 3).blk t).view.emb j) ?_ ?_
  · intro p l r hr
    show V c main_v23 (((cfg2.win 0).blk t).view.emb (ix2 p l)) = V c main_v23 (ix2 r l)
    refine congrArg (V c main_v23) (funext fun a => Fin.ext ?_)
    match a with
    | ⟨0, _⟩ => show win2_0.index t (0 : Fin 2) * 5000 + 1 * p.val = r.val; omega
    | ⟨1, _⟩ => show win2_0.index t (1 : Fin 2) * 16 + 1 * l.val = l.val; omega
  · intro l q
    show V c main_arg4 (((cfg2.win 1).blk t).view.emb (ix2 l q)) = V c main_arg4 (ix2 l q)
    refine congrArg (V c main_arg4) (funext fun a => Fin.ext ?_)
    match a with
    | ⟨0, _⟩ => show win2_1.index t (0 : Fin 2) * 16 + 1 * l.val = l.val; omega
    | ⟨1, _⟩ => show win2_1.index t (1 : Fin 2) * 2 + 1 * q.val = q.val; omega
  · intro p r hr
    show V c main_v24 (((cfg2.win 2).blk t).view.emb (ix2 p (0 : Fin 1))) = V c main_v24 (ix2 r (0 : Fin 1))
    refine congrArg (V c main_v24) (funext fun a => Fin.ext ?_)
    match a with
    | ⟨0, _⟩ => show win2_2.index t (0 : Fin 2) * 5000 + 1 * p.val = r.val; omega
    | ⟨1, _⟩ => show win2_2.index t (1 : Fin 2) * 1 + 1 * (0 : Fin 1).val = (0 : Fin 1).val; omega
  · show win2_3.index t (0 : Fin 2) * 5000 + 1 * (j 0).val = t.val * 5000 + (j 0).val; omega
  · show win2_3.index t (1 : Fin 2) * 2 + 1 * (j 1).val = (j 1).val; omega

/-! ## The 20 row blocks tile the array -/

/-- An index of the array is in point t's block iff each coordinate is in the block's range on its axis. -/
theorem mem_blk2 (t : Fin cfg2.N) (i : S100000x2.Idx) :
    i ∈ ((cfg2.win 3).blk t).view.set ↔ ∀ a : Fin 2, win2_3.index t a * S5000x2.size a ≤ (i a).val ∧ (i a).val < win2_3.index t a * S5000x2.size a + S5000x2.size a := by
  show i ∈ ((View.whole main_v25).slice (win2_3.rect t)).set ↔ _
  rw [View.set_slice_whole, Rect.mem_set_unit]
  exact Iff.rfl

/-- Row r lies in the block of point r / 5000, and every column lies in every block. -/
theorem cover2 (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31⟩ := idx_rows2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 2 ≤ (i 1).val ∧ (i 1).val < win2_3.index t (1 : Fin 2) * 2 + 2; omega

end Region2

/-- Region 2's output array: `hwScaled` of the three arrays the region finds at its entry. -/
theorem region2_out (V : (c : Dev nD) → (b : Ref sig .tc) → Buf (Elt Ideal) ((c : Thread nD τ).loc b)) (c : Dev nD) :
    (dat2 (F := Ideal) V c).arrAt 3 cfg2.N = hwScaled (V c main_v23) (V c main_arg4) (V c main_v24) := by
  exact (dat2 (F := Ideal) V c).arrAt_eq_of_cover 3 (hwScaled (V c main_v23) (V c main_arg4) (V c main_v24))
    (fun t _ => Region2.flushed2_eq V c t) Region2.cover2

end Cert.KernelIdeal.Hand

end
-- ==== Proof.Region3.lean ====
/-
  The fourth pallas_call's output array after its 20 grid points. Point t reads rows 5000·t … 5000·t + 4999 of the
  aggregated 2-column array and of the dinv column and the one bias row; with v[i, j] = a[i, j] · dinv[i] + b[j] it
  writes the row-wise log-softmax of v: (v − m) − log Σ_j exp(v − m), m the larger of −∞ and the row's maximum.
-/
import proofs.«403457_j50019189129603_3_alg».proof.Proof.Gen.KernelIdeal.Frame
import proofs.«403457_j50019189129603_3_alg».proof.Proof.Terms
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen Cert.Reals

namespace Region3

/-- The zero offsets of a whole-block access. -/
theorem zeroOffsets : (![0, 0] : Fin 2 → Nat) = fun _ => 0 := funext fun a => by fin_cases a <;> rfl

/-- The word of −∞ reads as the bottom of the extended reals. -/
theorem negInf_f32 : Ideal.ofBits .f32 0xFF800000#32 = (⊥ : EReal) := by simp [Ideal.ofBits, Ideal.ieee]

/-- The block after the bias step: each element times its row's dinv plus its column's bias. -/
def biasedBlock (x0 : Vec Ideal S5000x2 .f32) (x1 : Vec Ideal S5000x1 .f32) (x2 : Vec Ideal S1x2 .f32) : FVec Ideal S5000x2 .f32 :=
  addf (mulf (shapeCast S5000x2 x0 shapeCasts_S5000x2_S5000x2)
      (broadcastTo S5000x2 (shapeCast S5000x1 x1 shapeCasts_S5000x1_S5000x1) broadcasts_S5000x1_S5000x2))
    (broadcastTo S5000x2 (shapeCast S1x2 x2 shapeCasts_S1x2_S1x2) broadcasts_S1x2_S5000x2)

/-- Each row's maximum, taken from −∞ and once more against −∞. -/
def rowMax (u : FVec Ideal S5000x2 .f32) : FVec Ideal S5000 .f32 :=
  maximumf (broadcast S5000 (Scalar.ofBits .f32 0xFF800000#32))
    (multiReduction .maximumf [1] S5000 u 0xFF800000#32 reduces_S5000x2_S5000 (.inl rfl) rfl)

/-- The block with each row's maximum subtracted. -/
def shifted (u : FVec Ideal S5000x2 .f32) : FVec Ideal S5000x2 .f32 :=
  subf u (broadcastTo S5000x2 (shapeCast S5000x1 (rowMax u) shapeCasts_S5000_S5000x1) broadcasts_S5000x1_S5000x2)

/-- The row-wise log-softmax of a block: the shifted block minus the logarithm of each row's sum of exponentials. -/
def logSoftmaxBlock (u : FVec Ideal S5000x2 .f32) : FVec Ideal S5000x2 .f32 :=
  subf (shifted u)
    (broadcastTo S5000x2
      (log (shapeCast S5000x1 (multiReduction .add [1] S5000 (exp (shifted u)) 0x00000000#32 reduces_S5000x2_S5000 (.inl rfl) rfl)
        shapeCasts_S5000_S5000x1))
      broadcasts_S5000x1_S5000x2)

/-- The body's stored value is the row-wise log-softmax of the block after the bias step. -/
theorem stored_eq (x0 : Vec Ideal S5000x2 .f32) (x1 : Vec Ideal S5000x1 .f32) (x2 : Vec Ideal S1x2 .f32) :
    k3_pay1 (F := Ideal) x0 x1 x2 = logSoftmaxBlock (biasedBlock x0 x1 x2) := rfl

/-- The bias step at row p, column q. -/
theorem biasedBlock_apply (x0 : Vec Ideal S5000x2 .f32) (x1 : Vec Ideal S5000x1 .f32) (x2 : Vec Ideal S1x2 .f32)
    (p : Fin 5000) (q : Fin 2) :
    biasedBlock x0 x1 x2 (ix2 p q) = x0 (ix2 p q) * x1 (ix2 p (0 : Fin 1)) + x2 (ix2 (0 : Fin 1) q) := by
  unfold biasedBlock
  rw [addf_apply, mulf_apply, shapeCast_self, shapeCast_self, shapeCast_self]
  rw [broadcastTo_apply x1 broadcasts_S5000x1_S5000x2 (ix2 p q) (ix2 p (0 : Fin 1)) (fun a => by
      match a with
      | ⟨0, _⟩ => rfl
      | ⟨1, _⟩ => rfl)]
  rw [broadcastTo_apply x2 broadcasts_S1x2_S5000x2 (ix2 p q) (ix2 (0 : Fin 1) q) (fun a => by
      match a with
      | ⟨0, _⟩ => rfl
      | ⟨1, _⟩ => rfl)]

/-- Row p's index with column k put back in. -/
theorem rowLift (p : Fin 5000) (k : Fin 2) :
    Shape.Reduces.lift reduces_S5000x2_S5000 (ix1 p) k = ix2 p k := by
  funext a
  apply Fin.ext
  match a with
  | ⟨0, _⟩ => rfl
  | ⟨1, _⟩ => rfl

/-- A per-row value viewed as a one-column array and spread over the two columns reads the row's value. -/
theorem column_apply (v : FVec Ideal S5000 .f32) (p : Fin 5000) (q : Fin 2) :
    broadcastTo S5000x2 (shapeCast S5000x1 v shapeCasts_S5000_S5000x1) broadcasts_S5000x1_S5000x2 (ix2 p q) = v (ix1 p) := by
  rw [broadcastTo_apply _ broadcasts_S5000x1_S5000x2 (ix2 p q) (ix2 p (0 : Fin 1)) (fun a => by
      match a with
      | ⟨0, _⟩ => rfl
      | ⟨1, _⟩ => rfl)]
  exact shapeCast_apply v shapeCasts_S5000_S5000x1 (ix2 p (0 : Fin 1)) (ix1 p) (by
    rw [Shape.rowMajor_val_one, Shape.rowMajor_val_two]
    show p.val = p.val * 1 + 0
    omega)

/-- A row's maximum: the larger of −∞ and the fold of max from −∞ over the row's two columns. -/
theorem rowMax_apply (u : FVec Ideal S5000x2 .f32) (p : Fin 5000) :
    rowMax u (ix1 p) = max (⊥ : EReal) ((Finset.univ : Finset (Fin 2)).fold max (⊥ : EReal) (fun k => u (ix2 p k))) := by
  unfold rowMax
  rw [maximumf_apply, broadcast_apply]
  rw [show (Scalar.ofBits .f32 0xFF800000#32 : Ideal .f32) = (⊥ : EReal) from negInf_f32]
  refine congrArg (max (⊥ : EReal)) ?_
  refine (Ideal.multiReduction_maximumf_single u 0xFF800000#32 reduces_S5000x2_S5000 (.inl rfl) rfl (ix1 p)).trans ?_
  rw [show FloatOps.ofBits (F := Ideal) .f32 0xFF800000#32 = (⊥ : EReal) from negInf_f32]
  have hf : (u ∘ Shape.Reduces.lift reduces_S5000x2_S5000 (ix1 p)) = fun k : Fin 2 => u (ix2 p k) :=
    funext fun k => congrArg u (rowLift p k)
  rw [hf]
  rfl

/-- A row's sum over its two columns. -/
theorem rowSum_apply (u : FVec Ideal S5000x2 .f32) (p : Fin 5000) :
    multiReduction (F := Ideal) .add [1] S5000 u 0x00000000#32 reduces_S5000x2_S5000 (.inl rfl) rfl (ix1 p)
      = ∑ k : Fin 2, u (ix2 p k) := by
  refine (Ideal.multiReduction_add_single u 0x00000000#32 reduces_S5000x2_S5000 (.inl rfl) rfl (ix1 p)).trans ?_
  exact Finset.sum_congr rfl fun k _ => congrArg u (rowLift p k)

/-- The shifted block at row p, column q: the element minus its row's maximum. -/
theorem shifted_apply (u : FVec Ideal S5000x2 .f32) (p : Fin 5000) (q : Fin 2) :
    shifted u (ix2 p q)
      = u (ix2 p q) - max (⊥ : EReal) ((Finset.univ : Finset (Fin 2)).fold max (⊥ : EReal) (fun k => u (ix2 p k))) := by
  unfold shifted
  rw [subf_apply, column_apply, rowMax_apply]

/-- The log-softmax of a row of two extended reals, as the body spells it: with m the larger of −∞ and the row's
    maximum, (r q − m) − log Σ_k exp (r k − m). -/
def logSoftmaxRow (r : Fin 2 → EReal) (q : Fin 2) : EReal :=
  let mx : EReal := max (⊥ : EReal) ((Finset.univ : Finset (Fin 2)).fold max (⊥ : EReal) r)
  (r q - mx) - Ideal.log (∑ k : Fin 2, Ideal.exp (r k - mx))

/-- The block's row-wise log-softmax at row p, column q is the log-softmax of row p at q. -/
theorem logSoftmaxBlock_apply (u : FVec Ideal S5000x2 .f32) (p : Fin 5000) (q : Fin 2) :
    logSoftmaxBlock u (ix2 p q) = logSoftmaxRow (fun k => u (ix2 p k)) q := by
  unfold logSoftmaxBlock
  rw [subf_apply, shifted_apply]
  rw [broadcastTo_apply _ broadcasts_S5000x1_S5000x2 (ix2 p q) (ix2 p (0 : Fin 1)) (fun a => by
      match a with
      | ⟨0, _⟩ => rfl
      | ⟨1, _⟩ => rfl)]
  show _ - Ideal.log (shapeCast S5000x1 _ shapeCasts_S5000_S5000x1 (ix2 p (0 : Fin 1))) = _
  rw [shapeCast_apply _ shapeCasts_S5000_S5000x1 (ix2 p (0 : Fin 1)) (ix1 p) (by
    rw [Shape.rowMajor_val_one, Shape.rowMajor_val_two]
    show p.val = p.val * 1 + 0
    omega)]
  rw [rowSum_apply]
  have hexp : ∀ k : Fin 2, exp (shifted u) (ix2 p k)
      = Ideal.exp (u (ix2 p k) - max (⊥ : EReal) ((Finset.univ : Finset (Fin 2)).fold max (⊥ : EReal) (fun k => u (ix2 p k)))) := by
    intro k
    show Ideal.exp (shifted u (ix2 p k)) = _
    rw [shifted_apply]
  rw [Finset.sum_congr rfl fun k _ => hexp k]
  rfl

/-- A block whose rows are rows 5000·n … 5000·n + 4999 of the three arrays: the body's stored value at (p, q) is
    `biasLogSoftmax` of the arrays at row 5000·n + p, column q. -/
theorem stored_eq_arrays (a : S100000x2.Idx → EReal) (d : S100000x1.Idx → EReal) (b : S1x2.Idx → EReal)
    (x0 : Vec Ideal S5000x2 .f32) (x1 : Vec Ideal S5000x1 .f32) (x2 : Vec Ideal S1x2 .f32) (n : Nat)
    (h0 : ∀ (p : Fin 5000) (q : Fin 2) (i : S100000x2.Idx), (i 0).val = n * 5000 + p.val → (i 1).val = q.val → x0 (ix2 p q) = a i)
    (h1 : ∀ (p : Fin 5000) (i : S100000x1.Idx), (i 0).val = n * 5000 + p.val → x1 (ix2 p (0 : Fin 1)) = d i)
    (h2 : ∀ (q : Fin 2) (i : S1x2.Idx), (i 1).val = q.val → x2 (ix2 (0 : Fin 1) q) = b i)
    (p : Fin 5000) (q : Fin 2) (i : S100000x2.Idx) (hi0 : (i 0).val = n * 5000 + p.val) (hi1 : (i 1).val = q.val) :
    k3_pay1 (F := Ideal) x0 x1 x2 (ix2 p q) = biasLogSoftmax a d b i := by
  have hrow : (fun k : Fin 2 => biasedBlock x0 x1 x2 (ix2 p k))
      = fun k : Fin 2 => (fun i : S100000x2.Idx => a i * d (ix2 (i 0) (0 : Fin 1)) + b (ix2 (0 : Fin 1) (i 1))) (ix2 (i 0) k) := by
    funext k
    rw [biasedBlock_apply, h0 p k (ix2 (i 0) k) hi0 rfl, h1 p (ix2 (i 0) (0 : Fin 1)) hi0, h2 k (ix2 (0 : Fin 1) k) rfl]
  have hi : (ix2 (i 0) q : S100000x2.Idx) = i := by
    funext c
    apply Fin.ext
    match c with
    | ⟨0, _⟩ => rfl
    | ⟨1, _⟩ => exact hi1.symm
  rw [stored_eq, logSoftmaxBlock_apply, hrow, ← hi]
  rfl

/-- The printed index maps over the 20 points: the aggregated array's and the dinv column's row blocks move with the
    output's, the bias row stays, and the output's row-block index is the point itself. -/
theorem blockIndices : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

section Blocks
variable (V : (c : Dev nD) → (b : Ref sig .tc) → Buf (Elt Ideal) ((c : Thread nD τ).loc b)) (c : Dev nD) (t : Fin cfg3.N)

/-- The aggregated array's block at point t holds its rows 5000·t … 5000·t + 4999. -/
theorem aggBlock_apply (p : Fin 5000) (q : Fin 2) (i : S100000x2.Idx)
    (hi0 : (i 0).val = t.val * 5000 + p.val) (hi1 : (i 1).val = q.val) :
    (iblk3 (F := Ideal) V c 0 t : Vec Ideal S5000x2 .f32) (ix2 p q) = (V c main_v29 : S100000x2.Idx → EReal) i := by
  obtain ⟨e0, e1, -⟩ := blockIndices t
  unfold iblk3
  rw [View.read_apply]
  show (V c main_v29 : S100000x2.Idx → EReal) _ = V c main_v29 i
  congr 1
  funext a
  apply Fin.ext
  match a with
  | ⟨0, _⟩ => show win3_0.index t (0 : Fin 2) * 5000 + 1 * p.val = (i 0).val; rw [e0, hi0]; omega
  | ⟨1, _⟩ => show win3_0.index t (1 : Fin 2) * 2 + 1 * q.val = (i 1).val; rw [e1, hi1]; omega

/-- The dinv column's block at point t holds its rows 5000·t … 5000·t + 4999. -/
theorem dinvBlock_apply (p : Fin 5000) (i : S100000x1.Idx) (hi0 : (i 0).val = t.val * 5000 + p.val) :
    (iblk3 (F := Ideal) V c 1 t : Vec Ideal S5000x1 .f32) (ix2 p (0 : Fin 1)) = (V c main_v30 : S100000x1.Idx → EReal) i := by
  obtain ⟨-, -, e2, e3, -⟩ := blockIndices t
  have hi1 : (i 1).val = 0 := by have h : (i 1).val < 1 := (i 1).isLt; omega
  unfold iblk3
  rw [View.read_apply]
  show (V c main_v30 : S100000x1.Idx → EReal) _ = V c main_v30 i
  congr 1
  funext a
  apply Fin.ext
  match a with
  | ⟨0, _⟩ => show win3_1.index t (0 : Fin 2) * 5000 + 1 * p.val = (i 0).val; rw [e2, hi0]; omega
  | ⟨1, _⟩ => show win3_1.index t (1 : Fin 2) * 1 + 1 * 0 = (i 1).val; rw [e3, hi1]

/-- The bias row's block at every point is the whole row. -/
theorem biasBlock_apply (q : Fin 2) (i : S1x2.Idx) (hi1 : (i 1).val = q.val) :
    (iblk3 (F := Ideal) V c 2 t : Vec Ideal S1x2 .f32) (ix2 (0 : Fin 1) q) = (V c main_v31 : S1x2.Idx → EReal) i := by
  obtain ⟨-, -, -, -, e4, e5, -⟩ := blockIndices t
  have hi0 : (i 0).val = 0 := by have h : (i 0).val < 1 := (i 0).isLt; omega
  unfold iblk3
  rw [View.read_apply]
  show (V c main_v31 : S1x2.Idx → EReal) _ = V c main_v31 i
  congr 1
  funext a
  apply Fin.ext
  match a with
  | ⟨0, _⟩ => show win3_2.index t (0 : Fin 2) * 1 + 1 * 0 = (i 0).val; rw [e4, hi0]
  | ⟨1, _⟩ => show win3_2.index t (1 : Fin 2) * 2 + 1 * q.val = (i 1).val; rw [e5, hi1]; omega

/-- What point t writes back is block t of `biasLogSoftmax` of the three arrays. -/
theorem flushed_eq :
    (dat3 (F := Ideal) V c).flushed 3 t
      = ((cfg3.win 3).blk t).view.read (Elt Ideal) (biasLogSoftmax (V c main_v29) (V c main_v30) (V c main_v31)) := by
  show (cfg3.win 3).cut (grid3.coords t) ((dat3 V c).after 3 t) = _
  rw [after3_3]
  unfold out3_3
  rw [View.canon_unit_zero zeroOffsets]
  simp only [View.ld_unit_zero (S := S5000x2) zeroOffsets, View.ld_unit_zero (S := S5000x1) zeroOffsets, View.ld_unit_zero (S := S1x2) zeroOffsets]
  funext j
  obtain ⟨-, -, -, -, -, -, e6, e7⟩ := blockIndices t
  have hj : (win3 3).xinj (grid3.coords t) j = ix2 (⟨(j 0).val, (j 0).isLt⟩ : Fin 5000) (⟨(j 1).val, (j 1).isLt⟩ : Fin 2) := by
    funext a
    match a with
    | ⟨0, _⟩ => rfl
    | ⟨1, _⟩ => rfl
  show k3_pay1 (F := Ideal) (iblk3 V c 0 t) (iblk3 V c 1 t) (iblk3 V c 2 t) ((win3 3).xinj (grid3.coords t) j)
    = biasLogSoftmax (V c main_v29) (V c main_v30) (V c main_v31) (((cfg3.win 3).blk t).view.emb j)
  rw [hj]
  refine stored_eq_arrays (V c main_v29) (V c main_v30) (V c main_v31) (iblk3 V c 0 t) (iblk3 V c 1 t) (iblk3 V c 2 t) t.val
    (aggBlock_apply V c t) (dinvBlock_apply V c t) (biasBlock_apply V c t) _ _ _ ?_ ?_
  · show win3_3.index t (0 : Fin 2) * 5000 + 1 * (j 0).val = t.val * 5000 + (j 0).val
    rw [e6]; omega
  · show win3_3.index t (1 : Fin 2) * 2 + 1 * (j 1).val = (j 1).val
    rw [e7]; omega

end Blocks

/-- An index of the output array is in point t's block iff each coordinate is in the block's range on its axis. -/
theorem mem_block (t : Fin cfg3.N) (i : S100000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v32).slice (win3_3.rect t)).set ↔ _
  rw [View.set_slice_whole, Rect.mem_set_unit]
  exact Iff.rfl

/-- Every row r lies in the block of point r / 5000: the 20 row blocks tile the 100000 rows. -/
theorem covered (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hN : cfg3.N = 20 := rfl
  let t : Fin cfg3.N := ⟨(i 0).val / 5000, by rw [hN]; omega⟩
  obtain ⟨-, -, -, -, -, -, e6, e7⟩ := blockIndices t
  have ht : t.val = (i 0).val / 5000 := rfl
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 2 ≤ (i 1).val ∧ (i 1).val < win3_3.index t (1 : Fin 2) * 2 + 2; rw [e7]; omega

end Region3

/-- Region 3's output array: `biasLogSoftmax` of the three arrays the region finds at its entry. -/
theorem region3_out (V : (c : Dev nD) → (b : Ref sig .tc) → Buf (Elt Ideal) ((c : Thread nD τ).loc b)) (c : Dev nD) :
    (dat3 (F := Ideal) V c).arrAt 3 cfg3.N = biasLogSoftmax (V c main_v29) (V c main_v30) (V c main_v31) :=
  (dat3 (F := Ideal) V c).arrAt_eq_of_cover 3 (biasLogSoftmax (V c main_v29) (V c main_v30) (V c main_v31))
    (fun t _ => Region3.flushed_eq V c t) Region3.covered

end Cert.KernelIdeal.Hand

end
-- ==== Proof.KValue.lean ====
/-
  The idealized kernel program's result as one function of its six arguments.

  The run of @main is a fold through twelve segments: host stretches that build the source and destination index
  vectors and dinv from the edge list, take rows at the source ids and sum them into their destination rows, and
  four pallas_calls. Read back segment by segment:

    after the first stretches   src, dst and dinv are their named functions of the edge list;
    first pallas_call           (x·W1)[i, j] · dinv[i]                       (its output array, all 100000 rows);
    take, segment sum           Σ over the entries that land on row r of the scaled row of their source;
    second pallas_call          max(that · dinv[r] + b1, 0): layer one;
    third pallas_call           (layer one · W2)[i, j] · dinv[i];
    take, segment sum           as before, on 2 columns;
    fourth pallas_call          the row-wise log-softmax of that · dinv[r] + b2.

  A buffer that a segment does not write keeps its contents, so the index vectors, dinv and the arguments read
  later are carried unchanged from where they are made to where they are used.
-/
import proofs.«403457_j50019189129603_3_alg».proof.Proof.Gen.KernelIdeal.Frame
import proofs.«403457_j50019189129603_3_alg».proof.Proof.Terms
import proofs.«403457_j50019189129603_3_alg».proof.Proof.Region0
import proofs.«403457_j50019189129603_3_alg».proof.Proof.Region1
import proofs.«403457_j50019189129603_3_alg».proof.Proof.Region2
import proofs.«403457_j50019189129603_3_alg».proof.Proof.Region3
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen Idealize.ShloMosaic.StableHlo

/-- A buffer that none of the listed operations writes keeps its contents. -/
macro "kept_in" : tactic => `(tactic|
  (refine StableHlo.after_of_forall_not_mem _ _ (List.forall_iff_forall_mem.mp ?_)
   simp only [hostOps0, hostOps0_1, hostOps0_2, hostOps1, hostOps1_1, hostOps2, hostOps3, hostOps3_1,
     List.take_succ_cons, List.take_zero, List.drop_succ_cons, List.drop_zero,
     List.flatten_cons, List.flatten_nil, List.append_nil, List.cons_append, List.nil_append,
     List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The host stretches, from any contents `Wb` -/

section Stretches
variable {F : FTy → Type} [FloatOps F]

/-- A list of operations run in two parts. -/
theorem after_split (n : Nat) (ops : List (HloOp τ sig (Elt F))) (Wb : Valuation τ sig (Elt F)) :
    StableHlo.after ops Wb = StableHlo.after (ops.drop n) (StableHlo.after (ops.take n) Wb) := by
  conv_lhs => rw [← List.take_append_drop n ops]
  exact StableHlo.after_append _ _ _

/-- The first stretch leaves the source vector in main_v3 … -/
theorem s0_src (Wb : Valuation τ sig (Elt F)) :
    StableHlo.after hostOps0 Wb (Proc.devRef .tc main_v3) = srcVec (Wb (Proc.devRef .tc main_arg1)) := by
  after_results
  all_goals rfl

/-- … the destination vector in main_v6 … -/
theorem s0_dst (Wb : Valuation τ sig (Elt F)) :
    StableHlo.after hostOps0 Wb (Proc.devRef .tc main_v6) = dstVec (Wb (Proc.devRef .tc main_arg1)) := by
  after_results
  all_goals rfl

/-- … the degrees in main_v10 … -/
theorem s0_deg (Wb : Valuation τ sig (Elt F)) :
    StableHlo.after hostOps0 Wb (Proc.devRef .tc main_v10) = degVec (F := F) (Wb (Proc.devRef .tc main_arg1)) := by
  after_results
  all_goals rfl

/-- … the test deg > 0 in main_v12 … -/
theorem s0_pos (Wb : Valuation τ sig (Elt F)) :
    StableHlo.after hostOps0 Wb (Proc.devRef .tc main_v12)
      = cmpf (F := F) .ogt (StableHlo.after hostOps0 Wb (Proc.devRef .tc main_v10)) (broadcastInDim S100000 ![] bcast_S_S100000 (constant S_ .f32 0x00000000#32)) := by
  after_results
  all_goals rfl

/-- … deg^(-1/2) in main_v13 … -/
theorem s0_rsqrt (Wb : Valuation τ sig (Elt F)) :
    StableHlo.after hostOps0 Wb (Proc.devRef .tc main_v13) = Host.rsqrt (StableHlo.after hostOps0 Wb (Proc.devRef .tc main_v10)) := by
  after_results
  all_goals rfl

/-- … and the zero word in main_cst_2. -/
theorem s0_zero (Wb : Valuation τ sig (Elt F)) :
    StableHlo.after hostOps0 Wb (Proc.devRef .tc main_cst_2) = constant (F := F) S_ .f32 0x00000000#32 := by
  after_results
  all_goals rfl

/-- The select that makes dinv, from any contents. -/
theorem s01_select (Wb : Valuation τ sig (Elt F)) :
    StableHlo.after hostOps0_1 Wb (Proc.devRef .tc main_v14)
      = select (Wb (Proc.devRef .tc main_v12)) (Wb (Proc.devRef .tc main_v13)) (broadcastInDim S100000 ![] bcast_S_S100000 (id (Wb (Proc.devRef .tc main_cst_2)))) := by
  after_results
  simp only [TRef.ofBuf, TRef.toBuf, cast_eq]
  all_goals rfl

/-- After the first two stretches main_v14 holds dinv. -/
theorem s01_dinv (Wb : Valuation τ sig (Elt F)) :
    StableHlo.after hostOps0_1 (StableHlo.after hostOps0 Wb) (Proc.devRef .tc main_v14) = dinvVec (F := F) (Wb (Proc.devRef .tc main_arg1)) := by
  rw [s01_select, s0_pos, s0_rsqrt, s0_zero, s0_deg]
  rfl

/-- The third stretch: dinv as a column, in main_v15. -/
theorem s02_col (Wb : Valuation τ sig (Elt F)) :
    StableHlo.after hostOps0_2 Wb (Proc.devRef .tc main_v15) = shapeCast S100000x1 (Wb (Proc.devRef .tc main_v14)) shapeCasts_S100000_S100000x1 := by
  after_results
  all_goals rfl

/-! ### The take of 16-column rows, in three parts: the wrapped index column, the range test, the gather and the select -/

theorem take16_col (Wb : Valuation τ sig (Elt F)) :
    StableHlo.after ((hostOps1 (F := F)).take 8) Wb (Proc.devRef .tc main_call1_v5) = idxCol (wrapVec (Wb (Proc.devRef .tc main_v3))) := by
  simp only [hostOps1, List.take_succ_cons, List.take_zero]
  after_results
  simp only [TRef.ofBuf, TRef.toBuf, cast_eq]
  all_goals rfl

theorem take16_test (Wb : Valuation τ sig (Elt F)) :
    StableHlo.after (((hostOps1 (F := F)).drop 8).take 10) Wb (Proc.devRef .tc main_call1_v12) = inRange (Wb (Proc.devRef .tc main_call1_v5)) := by
  simp only [hostOps1, List.drop_succ_cons, List.drop_zero, List.take_succ_cons, List.take_zero]
  after_results
  simp only [TRef.ofBuf, TRef.toBuf, cast_eq]
  all_goals rfl

theorem take16_sel (Wb : Valuation τ sig (Elt F)) :
    StableHlo.after (((hostOps1 (F := F)).drop 8).drop 10) Wb (Proc.devRef .tc main_v17)
      = select (broadcastInDim S3300000x16 ![0] bcast_S3300000_S3300000x16_0 (Wb (Proc.devRef .tc main_call1_v12)))
          (Host.gather gather_S100000x16_S3300000x1_S3300000x16_1_0_n_n_0_1_116 (Wb (Proc.devRef .tc main_v16)) (Wb (Proc.devRef .tc main_call1_v5)))
          (broadcastInDim S3300000x16 ![] bcast_S_S3300000x16 (constant (F := F) S_ .f32 0x7FC00000#32)) := by
  simp only [hostOps1, List.drop_succ_cons, List.drop_zero]
  after_results
  simp only [TRef.ofBuf, TRef.toBuf, cast_eq]
  all_goals rfl

theorem take16_keepA (Wb : Valuation τ sig (Elt F)) :
    StableHlo.after ((hostOps1 (F := F)).take 8) Wb (Proc.devRef .tc main_v16) = Wb (Proc.devRef .tc main_v16) := by kept_in
theorem take16_keepB (Wb : Valuation τ sig (Elt F)) :
    StableHlo.after (((hostOps1 (F := F)).drop 8).take 10) Wb (Proc.devRef .tc main_v16) = Wb (Proc.devRef .tc main_v16) := by kept_in
theorem take16_keepB_col (Wb : Valuation τ sig (Elt F)) :
    StableHlo.after (((hostOps1 (F := F)).drop 8).take 10) Wb (Proc.devRef .tc main_call1_v5) = Wb (Proc.devRef .tc main_call1_v5) := by kept_in

/-- The fourth stretch: the rows of main_v16 taken at the ids main_v3, in main_v17. -/
theorem s1_take (Wb : Valuation τ sig (Elt F)) :
    StableHlo.after hostOps1 Wb (Proc.devRef .tc main_v17) = take16 (F := F) (Wb (Proc.devRef .tc main_v16)) (Wb (Proc.devRef .tc main_v3)) := by
  rw [after_split 8 hostOps1 Wb, after_split 10 (hostOps1.drop 8), take16_sel, take16_test, take16_keepB, take16_keepB_col, take16_keepA, take16_col]
  rfl

/-- The fifth stretch: the taken rows summed into their destination rows (main_v20), dinv as a column (main_v21), b1 as a row (main_v22). -/
theorem s11_seg (Wb : Valuation τ sig (Elt F)) :
    StableHlo.after hostOps1_1 Wb (Proc.devRef .tc main_v20) = seg16 (F := F) (Wb (Proc.devRef .tc main_v17)) (Wb (Proc.devRef .tc main_v6)) := by
  after_results
  all_goals rfl
theorem s11_col (Wb : Valuation τ sig (Elt F)) :
    StableHlo.after hostOps1_1 Wb (Proc.devRef .tc main_v21) = shapeCast S100000x1 (Wb (Proc.devRef .tc main_v14)) shapeCasts_S100000_S100000x1 := by
  after_results
  all_goals rfl
theorem s11_bias (Wb : Valuation τ sig (Elt F)) :
    StableHlo.after hostOps1_1 Wb (Proc.devRef .tc main_v22) = shapeCast S1x16 (Wb (Proc.devRef .tc main_arg3)) shapeCasts_S16_S1x16 := by
  after_results
  all_goals rfl

/-- The sixth stretch: dinv as a column again, in main_v24. -/
theorem s2_col (Wb : Valuation τ sig (Elt F)) :
    StableHlo.after hostOps2 Wb (Proc.devRef .tc main_v24) = shapeCast S100000x1 (Wb (Proc.devRef .tc main_v14)) shapeCasts_S100000_S100000x1 := by
  after_results
  all_goals rfl

/-! ### The take of 2-column rows, in the same three parts -/

theorem take2_col (Wb : Valuation τ sig (Elt F)) :
    StableHlo.after ((hostOps3 (F := F)).take 8) Wb (Proc.devRef .tc main_call2_v5) = idxCol (wrapVec (Wb (Proc.devRef .tc main_v3))) := by
  simp only [hostOps3, List.take_succ_cons, List.take_zero]
  after_results
  simp only [TRef.ofBuf, TRef.toBuf, cast_eq]
  all_goals rfl

theorem take2_test (Wb : Valuation τ sig (Elt F)) :
    StableHlo.after (((hostOps3 (F := F)).drop 8).take 10) Wb (Proc.devRef .tc main_call2_v12) = inRange (Wb (Proc.devRef .tc main_call2_v5)) := by
  simp only [hostOps3, List.drop_succ_cons, List.drop_zero, List.take_succ_cons, List.take_zero]
  after_results
  simp only [TRef.ofBuf, TRef.toBuf, cast_eq]
  all_goals rfl

theorem take2_sel (Wb : Valuation τ sig (Elt F)) :
    StableHlo.after (((hostOps3 (F := F)).drop 8).drop 10) Wb (Proc.devRef .tc main_v26)
      = select (broadcastInDim S3300000x2 ![0] bcast_S3300000_S3300000x2_0 (Wb (Proc.devRef .tc main_call2_v12)))
          (Host.gather gather_S100000x2_S3300000x1_S3300000x2_1_0_n_n_0_1_12 (Wb (Proc.devRef .tc main_v25)) (Wb (Proc.devRef .tc main_call2_v5)))
          (broadcastInDim S3300000x2 ![] bcast_S_S3300000x2 (constant (F := F) S_ .f32 0x7FC00000#32)) := by
  simp only [hostOps3, List.drop_succ_cons, List.drop_zero]
  after_results
  simp only [TRef.ofBuf, TRef.toBuf, cast_eq]
  all_goals rfl

theorem take2_keepA (Wb : Valuation τ sig (Elt F)) :
    StableHlo.after ((hostOps3 (F := F)).take 8) Wb (Proc.devRef .tc main_v25) = Wb (Proc.devRef .tc main_v25) := by kept_in
theorem take2_keepB (Wb : Valuation τ sig (Elt F)) :
    StableHlo.after (((hostOps3 (F := F)).drop 8).take 10) Wb (Proc.devRef .tc main_v25) = Wb (Proc.devRef .tc main_v25) := by kept_in
theorem take2_keepB_col (Wb : Valuation τ sig (Elt F)) :
    StableHlo.after (((hostOps3 (F := F)).drop 8).take 10) Wb (Proc.devRef .tc main_call2_v5) = Wb (Proc.devRef .tc main_call2_v5) := by kept_in

/-- The seventh stretch: the rows of main_v25 taken at the ids main_v3, in main_v26. -/
theorem s3_take (Wb : Valuation τ sig (Elt F)) :
    StableHlo.after hostOps3 Wb (Proc.devRef .tc main_v26) = take2 (F := F) (Wb (Proc.devRef .tc main_v25)) (Wb (Proc.devRef .tc main_v3)) := by
  rw [after_split 8 hostOps3 Wb, after_split 10 (hostOps3.drop 8), take2_sel, take2_test, take2_keepB, take2_keepB_col, take2_keepA, take2_col]
  rfl

/-- The last stretch: the segment sum (main_v29), dinv as a column (main_v30), b2 as a row (main_v31). -/
theorem s31_seg (Wb : Valuation τ sig (Elt F)) :
    StableHlo.after hostOps3_1 Wb (Proc.devRef .tc main_v29) = seg2 (F := F) (Wb (Proc.devRef .tc main_v26)) (Wb (Proc.devRef .tc main_v6)) := by
  after_results
  all_goals rfl
theorem s31_col (Wb : Valuation τ sig (Elt F)) :
    StableHlo.after hostOps3_1 Wb (Proc.devRef .tc main_v30) = shapeCast S100000x1 (Wb (Proc.devRef .tc main_v14)) shapeCasts_S100000_S100000x1 := by
  after_results
  all_goals rfl
theorem s31_bias (Wb : Valuation τ sig (Elt F)) :
    StableHlo.after hostOps3_1 Wb (Proc.devRef .tc main_v31) = shapeCast S1x2 (Wb (Proc.devRef .tc main_arg5)) shapeCasts_S2_S1x2 := by
  after_results
  all_goals rfl

end Stretches

/-! ## What is carried: the index vectors, dinv and the arguments read later -/

section Carried
variable (m : (ℓ : Loc nD τ sig) → Buf (Elt Ideal) ℓ) (c : Dev nD)

/-- The contents `W` hold the source and destination vectors, dinv, and the arguments b1, W2, b2 where the program keeps them. -/
def Live (W : Valuation τ sig (Elt Ideal)) : Prop :=
  W (Proc.devRef .tc main_v3) = srcVec (m ((c : Thread nD τ).loc main_arg1))
  ∧ W (Proc.devRef .tc main_v6) = dstVec (m ((c : Thread nD τ).loc main_arg1))
  ∧ W (Proc.devRef .tc main_v14) = dinvVec (F := Ideal) (m ((c : Thread nD τ).loc main_arg1))
  ∧ W (Proc.devRef .tc main_arg3) = m ((c : Thread nD τ).loc main_arg3)
  ∧ W (Proc.devRef .tc main_arg4) = m ((c : Thread nD τ).loc main_arg4)
  ∧ W (Proc.devRef .tc main_arg5) = m ((c : Thread nD τ).loc main_arg5)

/-- Contents that agree with `W` on the six carried buffers carry them too. -/
theorem Live.of_eq {W W' : Valuation τ sig (Elt Ideal)} (h : Live m c W)
    (k3 : W' (Proc.devRef .tc main_v3) = W (Proc.devRef .tc main_v3))
    (k6 : W' (Proc.devRef .tc main_v6) = W (Proc.devRef .tc main_v6))
    (k14 : W' (Proc.devRef .tc main_v14) = W (Proc.devRef .tc main_v14))
    (ka3 : W' (Proc.devRef .tc main_arg3) = W (Proc.devRef .tc main_arg3))
    (ka4 : W' (Proc.devRef .tc main_arg4) = W (Proc.devRef .tc main_arg4))
    (ka5 : W' (Proc.devRef .tc main_arg5) = W (Proc.devRef .tc main_arg5)) : Live m c W' :=
  ⟨k3.trans h.1, k6.trans h.2.1, k14.trans h.2.2.1, ka3.trans h.2.2.2.1, ka4.trans h.2.2.2.2.1, ka5.trans h.2.2.2.2.2⟩

end Carried

/-! ## The fold, boundary by boundary -/

section Fold
variable (m : (ℓ : Loc nD τ sig) → Buf (Elt Ideal) ℓ) (ρ : Dev nD → PrngReg) (c : Dev nD)

theorem live2 : Live m c (W2 m ρ c) := by
  refine ⟨?_, ?_, ?_, ?_, ?_, ?_⟩
  · exact (show StableHlo.after hostOps0_1 (W1 m ρ c) (Proc.devRef .tc main_v3) = W1 m ρ c (Proc.devRef .tc main_v3) by kept_in).trans (s0_src (W0 m ρ c))
  · exact (show StableHlo.after hostOps0_1 (W1 m ρ c) (Proc.devRef .tc main_v6) = W1 m ρ c (Proc.devRef .tc main_v6) by kept_in).trans (s0_dst (W0 m ρ c))
  · exact s01_dinv (W0 m ρ c)
  · exact (show StableHlo.after hostOps0_1 (W1 m ρ c) (Proc.devRef .tc main_arg3) = W1 m ρ c (Proc.devRef .tc main_arg3) by kept_in).trans
      (show StableHlo.after hostOps0 (W0 m ρ c) (Proc.devRef .tc main_arg3) = W0 m ρ c (Proc.devRef .tc main_arg3) by kept_in)
  · exact (show StableHlo.after hostOps0_1 (W1 m ρ c) (Proc.devRef .tc main_arg4) = W1 m ρ c (Proc.devRef .tc main_arg4) by kept_in).trans
      (show StableHlo.after hostOps0 (W0 m ρ c) (Proc.devRef .tc main_arg4) = W0 m ρ c (Proc.devRef .tc main_arg4) by kept_in)
  · exact (show StableHlo.after hostOps0_1 (W1 m ρ c) (Proc.devRef .tc main_arg5) = W1 m ρ c (Proc.devRef .tc main_arg5) by kept_in).trans
      (show StableHlo.after hostOps0 (W0 m ρ c) (Proc.devRef .tc main_arg5) = W0 m ρ c (Proc.devRef .tc main_arg5) by kept_in)

theorem live3 : Live m c (W3 m ρ c) :=
  (live2 m ρ c).of_eq m c
    (show StableHlo.after hostOps0_2 (W2 m ρ c) _ = _ by kept_in) (show StableHlo.after hostOps0_2 (W2 m ρ c) _ = _ by kept_in)
    (show StableHlo.after hostOps0_2 (W2 m ρ c) _ = _ by kept_in) (show StableHlo.after hostOps0_2 (W2 m ρ c) _ = _ by kept_in)
    (show StableHlo.after hostOps0_2 (W2 m ρ c) _ = _ by kept_in) (show StableHlo.after hostOps0_2 (W2 m ρ c) _ = _ by kept_in)

theorem live4 : Live m c (W4 m ρ c) :=
  (live3 m ρ c).of_eq m c (W4_of_ne m ρ c main_v3 (by decide)) (W4_of_ne m ρ c main_v6 (by decide)) (W4_of_ne m ρ c main_v14 (by decide))
    (W4_of_ne m ρ c main_arg3 (by decide)) (W4_of_ne m ρ c main_arg4 (by decide)) (W4_of_ne m ρ c main_arg5 (by decide))

theorem live5 : Live m c (W5 m ρ c) :=
  (live4 m ρ c).of_eq m c
    (show StableHlo.after hostOps1 (W4 m ρ c) _ = _ by kept_in) (show StableHlo.after hostOps1 (W4 m ρ c) _ = _ by kept_in)
    (show StableHlo.after hostOps1 (W4 m ρ c) _ = _ by kept_in) (show StableHlo.after hostOps1 (W4 m ρ c) _ = _ by kept_in)
    (show StableHlo.after hostOps1 (W4 m ρ c) _ = _ by kept_in) (show StableHlo.after hostOps1 (W4 m ρ c) _ = _ by kept_in)

theorem live6 : Live m c (W6 m ρ c) :=
  (live5 m ρ c).of_eq m c
    (show StableHlo.after hostOps1_1 (W5 m ρ c) _ = _ by kept_in) (show StableHlo.after hostOps1_1 (W5 m ρ c) _ = _ by kept_in)
    (show StableHlo.after hostOps1_1 (W5 m ρ c) _ = _ by kept_in) (show StableHlo.after hostOps1_1 (W5 m ρ c) _ = _ by kept_in)
    (show StableHlo.after hostOps1_1 (W5 m ρ c) _ = _ by kept_in) (show StableHlo.after hostOps1_1 (W5 m ρ c) _ = _ by kept_in)

theorem live7 : Live m c (W7 m ρ c) :=
  (live6 m ρ c).of_eq m c (W7_of_ne m ρ c main_v3 (by decide)) (W7_of_ne m ρ c main_v6 (by decide)) (W7_of_ne m ρ c main_v14 (by decide))
    (W7_of_ne m ρ c main_arg3 (by decide)) (W7_of_ne m ρ c main_arg4 (by decide)) (W7_of_ne m ρ c main_arg5 (by decide))

theorem live8 : Live m c (W8 m ρ c) :=
  (live7 m ρ c).of_eq m c
    (show StableHlo.after hostOps2 (W7 m ρ c) _ = _ by kept_in) (show StableHlo.after hostOps2 (W7 m ρ c) _ = _ by kept_in)
    (show StableHlo.after hostOps2 (W7 m ρ c) _ = _ by kept_in) (show StableHlo.after hostOps2 (W7 m ρ c) _ = _ by kept_in)
    (show StableHlo.after hostOps2 (W7 m ρ c) _ = _ by kept_in) (show StableHlo.after hostOps2 (W7 m ρ c) _ = _ by kept_in)

/-- W2 is read by the third pallas_call through an input window, which leaves its array as it found it. -/
theorem live9 : Live m c (W9 m ρ c) :=
  (live8 m ρ c).of_eq m c (W9_of_ne m ρ c main_v3 (by decide)) (W9_of_ne m ρ c main_v6 (by decide)) (W9_of_ne m ρ c main_v14 (by decide))
    (W9_of_ne m ρ c main_arg3 (by decide))
    ((W9_arr m ρ c 1).trans (((dat2 (V8 m ρ) c).arrAt_in 1 rfl _).trans (A_eq2 (V8 m ρ) c 1)))
    (W9_of_ne m ρ c main_arg5 (by decide))

theorem live10 : Live m c (W10 m ρ c) :=
  (live9 m ρ c).of_eq m c
    (show StableHlo.after hostOps3 (W9 m ρ c) _ = _ by kept_in) (show StableHlo.after hostOps3 (W9 m ρ c) _ = _ by kept_in)
    (show StableHlo.after hostOps3 (W9 m ρ c) _ = _ by kept_in) (show StableHlo.after hostOps3 (W9 m ρ c) _ = _ by kept_in)
    (show StableHlo.after hostOps3 (W9 m ρ c) _ = _ by kept_in) (show StableHlo.after hostOps3 (W9 m ρ c) _ = _ by kept_in)

/-- x and W1 are as launched when the first pallas_call reads them. -/
theorem W3_arg0 : W3 m ρ c (Proc.devRef .tc main_arg0) = m ((c : Thread nD τ).loc main_arg0) :=
  (show StableHlo.after hostOps0_2 (W2 m ρ c) (Proc.devRef .tc main_arg0) = W2 m ρ c (Proc.devRef .tc main_arg0) by kept_in).trans <|
  (show StableHlo.after hostOps0_1 (W1 m ρ c) (Proc.devRef .tc main_arg0) = W1 m ρ c (Proc.devRef .tc main_arg0) by kept_in).trans
  (show StableHlo.after hostOps0 (W0 m ρ c) (Proc.devRef .tc main_arg0) = W0 m ρ c (Proc.devRef .tc main_arg0) by kept_in)
theorem W3_arg2 : W3 m ρ c (Proc.devRef .tc main_arg2) = m ((c : Thread nD τ).loc main_arg2) :=
  (show StableHlo.after hostOps0_2 (W2 m ρ c) (Proc.devRef .tc main_arg2) = W2 m ρ c (Proc.devRef .tc main_arg2) by kept_in).trans <|
  (show StableHlo.after hostOps0_1 (W1 m ρ c) (Proc.devRef .tc main_arg2) = W1 m ρ c (Proc.devRef .tc main_arg2) by kept_in).trans
  (show StableHlo.after hostOps0 (W0 m ρ c) (Proc.devRef .tc main_arg2) = W0 m ρ c (Proc.devRef .tc main_arg2) by kept_in)

/-- The first pallas_call's output array. -/
theorem W4_out : W4 m ρ c (Proc.devRef .tc main_v16)
    = xwScaled (m ((c : Thread nD τ).loc main_arg0)) (m ((c : Thread nD τ).loc main_arg2)) (dinvCol (F := Ideal) (m ((c : Thread nD τ).loc main_arg1))) := by
  refine (W4_arr m ρ c 3).trans ?_
  rw [region0_out (V3 m ρ) c]
  have e0 : V3 m ρ c main_arg0 = m ((c : Thread nD τ).loc main_arg0) := W3_arg0 m ρ c
  have e2 : V3 m ρ c main_arg2 = m ((c : Thread nD τ).loc main_arg2) := W3_arg2 m ρ c
  have e15 : V3 m ρ c main_v15 = dinvCol (F := Ideal) (m ((c : Thread nD τ).loc main_arg1)) :=
    (s02_col (W2 m ρ c)).trans (by rw [(live2 m ρ c).2.2.1]; rfl)
  rw [e0, e2, e15]

/-- Layer one's result: the second pallas_call's output array. -/
theorem W7_out : W7 m ρ c (Proc.devRef .tc main_v23)
    = layer1 (m ((c : Thread nD τ).loc main_arg0)) (m ((c : Thread nD τ).loc main_arg1)) (m ((c : Thread nD τ).loc main_arg2)) (m ((c : Thread nD τ).loc main_arg3)) := by
  refine (W7_arr m ρ c 3).trans ?_
  rw [region1_out (V6 m ρ) c]
  have e17 : W5 m ρ c (Proc.devRef .tc main_v17) = take16 (F := Ideal) (W4 m ρ c (Proc.devRef .tc main_v16)) (W4 m ρ c (Proc.devRef .tc main_v3)) := s1_take (W4 m ρ c)
  have e20 : V6 m ρ c main_v20 = seg16 (F := Ideal) (W5 m ρ c (Proc.devRef .tc main_v17)) (W5 m ρ c (Proc.devRef .tc main_v6)) := s11_seg (W5 m ρ c)
  have e21 : V6 m ρ c main_v21 = shapeCast S100000x1 (W5 m ρ c (Proc.devRef .tc main_v14)) shapeCasts_S100000_S100000x1 := s11_col (W5 m ρ c)
  have e22 : V6 m ρ c main_v22 = shapeCast S1x16 (W5 m ρ c (Proc.devRef .tc main_arg3)) shapeCasts_S16_S1x16 := s11_bias (W5 m ρ c)
  rw [e20, e21, e22, e17, W4_out, (live4 m ρ c).1, (live5 m ρ c).2.1, (live5 m ρ c).2.2.1, (live5 m ρ c).2.2.2.1]
  rfl

/-- The third pallas_call's output array. -/
theorem W9_out : W9 m ρ c (Proc.devRef .tc main_v25)
    = hwScaled (layer1 (m ((c : Thread nD τ).loc main_arg0)) (m ((c : Thread nD τ).loc main_arg1)) (m ((c : Thread nD τ).loc main_arg2)) (m ((c : Thread nD τ).loc main_arg3)))
        (m ((c : Thread nD τ).loc main_arg4)) (dinvCol (F := Ideal) (m ((c : Thread nD τ).loc main_arg1))) := by
  refine (W9_arr m ρ c 3).trans ?_
  rw [region2_out (V8 m ρ) c]
  have e23 : V8 m ρ c main_v23 = W7 m ρ c (Proc.devRef .tc main_v23) :=
    (show StableHlo.after hostOps2 (W7 m ρ c) (Proc.devRef .tc main_v23) = W7 m ρ c (Proc.devRef .tc main_v23) by kept_in)
  have e4 : V8 m ρ c main_arg4 = m ((c : Thread nD τ).loc main_arg4) := (live8 m ρ c).2.2.2.2.1
  have e24 : V8 m ρ c main_v24 = shapeCast S100000x1 (W7 m ρ c (Proc.devRef .tc main_v14)) shapeCasts_S100000_S100000x1 := s2_col (W7 m ρ c)
  rw [e23, e4, e24, W7_out, (live7 m ρ c).2.2.1]
  rfl

/-- THE KERNEL PROGRAM'S RESULT: what the fold leaves in main_v32 is `out` of the six arguments. -/
theorem kernel_value : W12 m ρ c (Proc.devRef .tc main_v32)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W12_arr m ρ c 3).trans ?_
  rw [region3_out (V11 m ρ) c]
  have e26 : W10 m ρ c (Proc.devRef .tc main_v26) = take2 (F := Ideal) (W9 m ρ c (Proc.devRef .tc main_v25)) (W9 m ρ c (Proc.devRef .tc main_v3)) := s3_take (W9 m ρ c)
  have e29 : V11 m ρ c main_v29 = seg2 (F := Ideal) (W10 m ρ c (Proc.devRef .tc main_v26)) (W10 m ρ c (Proc.devRef .tc main_v6)) := s31_seg (W10 m ρ c)
  have e30 : V11 m ρ c main_v30 = shapeCast S100000x1 (W10 m ρ c (Proc.devRef .tc main_v14)) shapeCasts_S100000_S100000x1 := s31_col (W10 m ρ c)
  have e31 : V11 m ρ c main_v31 = shapeCast S1x2 (W10 m ρ c (Proc.devRef .tc main_arg5)) shapeCasts_S2_S1x2 := s31_bias (W10 m ρ c)
  rw [e29, e30, e31, e26, W9_out, (live9 m ρ c).1, (live10 m ρ c).2.1, (live10 m ρ c).2.2.1, (live10 m ρ c).2.2.2.2.2]
  rfl

end Fold

end Cert.KernelIdeal.Hand

end
-- ==== Proof.Pre.lean ====
/-
  What the precondition says, entry by entry. The printed predicate is a conjunction of seven all-reductions: for each
  of the five float inputs, |entry| < +∞ at every index; and for row 0 of the edge list (the edges' source ids),
  0 ≤ id and id < 100000 at every column. Read back: every float entry is a real number, and every source id
  names a node.
-/
import proofs.«403457_j50019189129603_3_alg».proof.Pre_finite_inputs
import proofs.«403457_j50019189129603_3_alg».proof.Proof.Gen.Pre_finite_inputs
import proofs.«403457_j50019189129603_3_alg».proof.Proof.Reals
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

noncomputable section

namespace Cert.PreRead

open Idealize.ShloMosaic Idealize.ShloMosaic.ValueIdx Cert.Pre_finite_inputs Cert.Reals

/-- The rank-0 shape has one index. -/
instance : Subsingleton S_.Idx := ⟨fun a b => funext fun d => d.elim0⟩

/-- An extended real whose absolute value lies strictly below +∞ is a real number. -/
theorem isReal_of_abs_lt_top (x : EReal)
    (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

/-- jnp.all(|x| < +∞) over a float array, read back: every entry of x is a real number. -/
theorem real_of_all {s : Shape} {axes : List (Fin s.rank)} (x : FVec Ideal s .f32) (hb : S_.BroadcastsInDim s ![])
    (hr : s.ReducesTo axes S_) (h0 : 0 < S_.numel) (init : IVec S_ 1)
    (e : Host.reduce IntOp.andi (cmpf (F := Ideal) .olt (Host.absf (F := Ideal) x)
          (broadcastInDim s ![] hb (constant (F := Ideal) S_ .f32 0x7F800000#32))) init hr h0 ix0 = 1#1)
    (i : s.Idx) : IsReal (x i) :=
  isReal_of_abs_lt_top (x i) (Host.reduce_andi_all _ init hr h0 ix0 e i)

/-- Row 0 of the edge list, sliced out and flattened, read at column p: the entry (0, p). -/
theorem row0_apply (a1 : IVec S2x3200000 32) (hs : S2x3200000.Slices ![0, 0] S1x3200000)
    (hc : S1x3200000.ShapeCasts S3200000) (p : Fin 3200000) :
    shapeCast S3200000 (extractStridedSlice S1x3200000 ![0, 0] a1 hs) hc (ix1 p) = a1 (ix2 (0 : Fin 2) p) := by
  refine (shapeCast_apply _ hc (ix1 p) (ix2 (0 : Fin 1) p) ?_).trans ?_
  · rewrite [Shape.rowMajor_val_two, Shape.rowMajor_val_one]
    show 0 * 3200000 + p.val = p.val
    omega
  · exact extractStridedSlice_apply ![0, 0] a1 hs (ix2 (0 : Fin 1) p) (ix2 (0 : Fin 2) p) (fun a => match a with
      | ⟨0, _⟩ => by show (0 : Nat) = 0 + 0; rfl
      | ⟨1, _⟩ => by show p.val = 0 + p.val; omega)

/-- jnp.all over the flattened row 0 of a signed compare against a broadcast scalar c, read back at column p. -/
theorem cmp_of_all (pr : CmpIPredicate) (a1 : IVec S2x3200000 32) (hs : S2x3200000.Slices ![0, 0] S1x3200000)
    (hc : S1x3200000.ShapeCasts S3200000) (hb : S_.BroadcastsInDim S3200000 ![]) (hr : S3200000.ReducesTo [0] S_)
    (h0 : 0 < S_.numel) (init : IVec S_ 1) (c : BitVec 32)
    (e : Host.reduce IntOp.andi (cmpi pr (shapeCast S3200000 (extractStridedSlice S1x3200000 ![0, 0] a1 hs) hc)
          (broadcastInDim S3200000 ![] hb (constantI S_ 32 c))) init hr h0 ix0 = 1#1)
    (p : Fin 3200000) : IntOp.cmpi pr (a1 (ix2 (0 : Fin 2) p)) c = 1#1 := by
  have := Host.reduce_andi_all _ init hr h0 ix0 e (ix1 p)
  rw [← row0_apply a1 hs hc p]
  exact this

/-- The precondition, read back at every entry. -/
theorem of_pre (a0 : FVec Ideal S100000x128 .f32) (a1 : IVec S2x3200000 32) (a2 : FVec Ideal S128x16 .f32)
    (a3 : FVec Ideal S16 .f32) (a4 : FVec Ideal S16x2 .f32) (a5 : FVec Ideal S2 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i))
    ∧ ∀ p : Fin 3200000, 0 ≤ (a1 (ix2 (0 : Fin 2) p)).toInt ∧ (a1 (ix2 (0 : Fin 2) p)).toInt < 100000 := by
  have e := congrFun h ix0
  dsimp only [fn, fn_part1, fn_part2] at e
  simp only [andi, IntOp.andi_eq_one] at e
  obtain ⟨⟨⟨⟨⟨⟨e0, e2⟩, e3⟩, e4⟩, e5⟩, ege⟩, elt⟩ := e
  refine ⟨real_of_all a0 _ _ _ _ e0, real_of_all a2 _ _ _ _ e2, real_of_all a3 _ _ _ _ e3, real_of_all a4 _ _ _ _ e4,
    real_of_all a5 _ _ _ _ e5, fun p => ⟨?_, ?_⟩⟩
  · have := IntOp.cmpi_sge.1 (cmp_of_all .sge a1 _ _ _ _ _ _ _ ege p)
    simpa using this
  · have := IntOp.cmpi_slt.1 (cmp_of_all .slt a1 _ _ _ _ _ _ _ elt p)
    simpa using this

end Cert.PreRead

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LayerCore.lean ====
/-
  A factor moved across a segment sum. Rows T[p, ·] summed into their destination rows and the sum then scaled by
  D[r] is the segment sum of the rows U[p, ·], whenever U[p, q] = T[p, q] · D[r] for every update p that lands on
  row r, every T entry is a real number and every D entry is a real number: on the reals a product distributes
  over a finite sum (on the extended reals it does not: ∞ − ∞).
-/
import proofs.«403457_j50019189129603_3_alg».proof.Proof.Reals
import proofs.«403457_j50019189129603_3_alg».proof.Proof.LibRows
import Idealize.ShloMosaic.PureOps.Ideal
import Idealize.ShloMosaic.Lib.ValueIdx

noncomputable section

open scoped BigOperators

namespace Cert.Reals

open Idealize.ShloMosaic Idealize.ShloMosaic.ValueIdx Cert.LibRows

/-! ## Closure of the reals under the operations the programs use -/

theorem isReal_coe (r : ℝ) : IsReal (r : EReal) := ⟨r, rfl⟩
theorem isReal_zero : IsReal (0 : EReal) := ⟨0, by simp⟩
theorem isReal_one : IsReal (1 : EReal) := ⟨1, by simp⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  -- the larger of two reals is one of the two
  rcases le_total x y with h | h
  · rw [max_eq_right h]; exact hy
  · rw [max_eq_left h]; exact hx
theorem isReal_sum {ι : Type*} (s : Finset ι) (f : ι → EReal) (hf : ∀ i ∈ s, IsReal (f i)) : IsReal (∑ i ∈ s, f i) := by
  classical
  -- by induction on the index set: the empty sum is 0, and one more term is one more real summand
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))
theorem isReal_ite {P : Prop} [Decidable P] {x y : EReal} (hx : IsReal x) (hy : IsReal y) : IsReal (if P then x else y) := by
  split_ifs
  · exact hx
  · exact hy

/-- On the reals a factor moves across a finite sum. -/
theorem sum_mul_of_real {ι : Type*} (s : Finset ι) (f : ι → EReal) (d : EReal) (hf : ∀ i ∈ s, IsReal (f i)) (hd : IsReal d) :
    (∑ i ∈ s, f i) * d = ∑ i ∈ s, f i * d := by
  classical
  induction s using Finset.induction_on with
  | empty => rw [Finset.sum_empty, Finset.sum_empty, zero_mul]
  | insert a s ha ih =>
    have hs : ∀ i ∈ s, IsReal (f i) := fun i hi => hf i (Finset.mem_insert_of_mem hi)
    rw [Finset.sum_insert ha, Finset.sum_insert ha, ← ih hs]
    -- (x + S) · d = x · d + S · d for three real numbers x, S, d
    obtain ⟨x, hx⟩ := hf a (Finset.mem_insert_self a s)
    obtain ⟨S, hS⟩ := isReal_sum s f hs
    obtain ⟨t, rfl⟩ := hd
    rw [hx, hS, ← EReal.coe_add, ← EReal.coe_mul, ← EReal.coe_mul, ← EReal.coe_mul, ← EReal.coe_add, add_mul]

/-! ## The segment sum of rows, scaled -/

/-- THE LAYER'S LAW. The row scatter-add of T over zeros, read at (r, q) and multiplied by D r, is the row scatter-add of
    U over zeros at (r, q), when U p q = T p q · D r for every update row p whose index word names row r. -/
theorem segsum_scale {n e c : Nat} (wfs : ScatterDims.WF ⟨2, ![n, c]⟩ ⟨2, ![e, 1]⟩ ⟨2, ![e, c]⟩ [1] [0] [0] 1)
    (Z : (⟨2, ![n, c]⟩ : Shape).Idx → EReal) (hZ : ∀ i, Z i = 0)
    (dc : IVec ⟨2, ![e, 1]⟩ 32)
    (T U : (⟨2, ![e, c]⟩ : Shape).Idx → EReal) (D : Fin n → EReal)
    (hT : ∀ (p : Fin e) (q : Fin c), IsReal (T (ix2 p q))) (hD : ∀ i, IsReal (D i))
    (hU : ∀ (p : Fin e) (q : Fin c) (r : Fin n), (dc (ix2 p (0 : Fin 1))).toInt = (r.val : Int) → U (ix2 p q) = T (ix2 p q) * D r)
    (r : Fin n) (q : Fin c) :
    Host.scatterAdd (F := Ideal) (φ := .f32) (rowScatterDims n e c wfs) Z dc T (ix2 r q) * D r
      = Host.scatterAdd (F := Ideal) (φ := .f32) (rowScatterDims n e c wfs) Z dc U (ix2 r q) := by
  -- both sides are 0 plus a sum over the update rows p of the entry (p, q) where the index word of p names r
  rw [rowScatterAdd_apply wfs Z dc T r q, rowScatterAdd_apply wfs Z dc U r q, hZ, zero_add, zero_add]
  -- every term of the left sum is real, so the factor D r goes inside the sum
  rw [sum_mul_of_real Finset.univ _ (D r)
    (fun p _ => isReal_ite (hT p q) isReal_zero) (hD r)]
  refine Finset.sum_congr rfl fun p _ => ?_
  -- a row that lands on r carries T · D r = U; any other row carries 0 · D r = 0
  split_ifs with hp
  · exact (hU p q r hp).symm
  · exact zero_mul _

/-- The segment sum of real rows over zeros is real. -/
theorem segsum_real {n e c : Nat} (wfs : ScatterDims.WF ⟨2, ![n, c]⟩ ⟨2, ![e, 1]⟩ ⟨2, ![e, c]⟩ [1] [0] [0] 1)
    (Z : (⟨2, ![n, c]⟩ : Shape).Idx → EReal) (hZ : ∀ i, Z i = 0) (dc : IVec ⟨2, ![e, 1]⟩ 32)
    (T : (⟨2, ![e, c]⟩ : Shape).Idx → EReal) (hT : ∀ (p : Fin e) (q : Fin c), IsReal (T (ix2 p q))) (r : Fin n) (q : Fin c) :
    IsReal (Host.scatterAdd (F := Ideal) (φ := .f32) (rowScatterDims n e c wfs) Z dc T (ix2 r q)) := by
  -- 0 plus a finite sum whose every term is an entry of T or 0
  rw [rowScatterAdd_apply wfs Z dc T r q, hZ, zero_add]
  exact isReal_sum Finset.univ _ fun p _ => isReal_ite (hT p q) isReal_zero

end Cert.Reals

end
-- ==== Proof.Edges.lean ====
/-
  The index vectors, entry by entry. The source vector is row 0 of the edge list followed by the node ids
  0 … 99999; under the precondition every entry is a node id. For a non-negative id the wrap (id + N where id < 0)
  changes nothing, the range test 0 ≤ id ≤ N − 1 holds, and a gather's clamp changes nothing: the take of rows reads
  exactly the row the entry names, and the NaN filler is never selected. A destination entry equal to a node id r
  wraps and clamps to r itself.
-/
import proofs.«403457_j50019189129603_3_alg».proof.Proof.Terms
import proofs.«403457_j50019189129603_3_alg».proof.Proof.LibRows
import Idealize.ShloMosaic.Lib.Pipeline.Value
import Idealize.ShloMosaic.Lib.StableHlo.Predicate
import Idealize.ShloMosaic.Lib.ReduceAll

noncomputable section

open scoped BigOperators

namespace Cert.KernelIdeal.Hand

open Idealize.ShloMosaic Idealize.ShloMosaic.ValueIdx Cert.KernelIdeal Cert.KernelIdeal.Gen Cert.Reals Cert.LibRows

/-- The precondition's conjunct on the edge list: every edge's source id names a node. -/
def SrcInRange (x1 : IVec S2x3200000 32) : Prop :=
  ∀ p : Fin 3200000, 0 ≤ (x1 (ix2 (0 : Fin 2) p)).toInt ∧ (x1 (ix2 (0 : Fin 2) p)).toInt < 100000

/-- An entry before the 3200000-th of the source vector is that edge's entry in row 0 of the edge list. -/
theorem srcVec_edge (x1 : IVec S2x3200000 32) (p : Fin 3300000) (hp : p.val < 3200000) :
    srcVec x1 (ix1 p) = x1 (ix2 (0 : Fin 2) (⟨p.val, hp⟩ : Fin 3200000)) := by
  unfold srcVec
  refine (concatenate_pair_apply_left (0 : Fin S3300000.rank) _ _ concatenates_S3200000_S100000_S3300000_d0 (ix1 p) rfl
    (ix1 (⟨p.val, hp⟩ : Fin 3200000)) (fun b => ?_)).trans ?_
  · match b with
    | ⟨0, _⟩ => rfl
  refine (shapeCast_apply _ shapeCasts_S1x3200000_S3200000 (ix1 (⟨p.val, hp⟩ : Fin 3200000))
    (ix2 (0 : Fin 1) (⟨p.val, hp⟩ : Fin 3200000)) ?_).trans ?_
  · rewrite [Shape.rowMajor_val_two, Shape.rowMajor_val_one]
    show 0 * 3200000 + p.val = p.val
    omega
  exact extractStridedSlice_apply ![0, 0] x1 slices_S2x3200000_S1x3200000_0_0 (ix2 (0 : Fin 1) (⟨p.val, hp⟩ : Fin 3200000))
    (ix2 (0 : Fin 2) (⟨p.val, hp⟩ : Fin 3200000)) (fun a => match a with
      | ⟨0, _⟩ => by show (0 : Nat) = 0 + 0; omega
      | ⟨1, _⟩ => by show p.val = 0 + p.val; omega)

/-- An entry from the 3200000-th on is a node's own id: the position less 3200000, as a 32-bit word. -/
theorem srcVec_loop (x1 : IVec S2x3200000 32) (p : Fin 3300000) (hp : 3200000 ≤ p.val) :
    srcVec x1 (ix1 p) = BitVec.ofNat 32 (p.val - 3200000) := by
  unfold srcVec
  have hq : p.val - 3200000 < 100000 := by have := p.isLt; omega
  refine (concatenate_pair_apply_right (0 : Fin S3300000.rank) _ _ concatenates_S3200000_S100000_S3300000_d0 (ix1 p) rfl rfl
    (ix1 (⟨p.val - 3200000, hq⟩ : Fin 100000)) (fun b hb => ?_) ?_).trans ?_
  · exact absurd (Subsingleton.elim (α := Fin 1) _ _) hb
  · show p.val - 3200000 + 3200000 = p.val
    omega
  rfl

/-- Every entry of the source vector names a node: an edge's by the precondition, a self-loop's because it is the node's own id. -/
theorem srcVec_range (x1 : IVec S2x3200000 32) (hs : SrcInRange x1) (p : Fin 3300000) :
    0 ≤ (srcVec x1 (ix1 p)).toInt ∧ (srcVec x1 (ix1 p)).toInt < 100000 := by
  by_cases hp : p.val < 3200000
  · rw [srcVec_edge x1 p hp]
    exact hs ⟨p.val, hp⟩
  · have hp' : 3200000 ≤ p.val := Nat.le_of_not_lt hp
    have hq : p.val - 3200000 < 100000 := by have := p.isLt; omega
    rw [srcVec_loop x1 p hp', StableHlo.Predicate.toInt_ofNat_small _ (by omega)]
    omega

/-- The node that entry p of the source vector names. -/
def srow (x1 : IVec S2x3200000 32) (hs : SrcInRange x1) (p : Fin 3300000) : Fin 100000 :=
  ⟨(srcVec x1 (ix1 p)).toInt.toNat, by have := srcVec_range x1 hs p; omega⟩

/-- A word in 0 … N−1 is unchanged by the wrap. -/
theorem wrapVec_of_nonneg (v : IVec S3300000 32) (p : Fin 3300000) (h : 0 ≤ (v (ix1 p)).toInt) :
    wrapVec v (ix1 p) = v (ix1 p) := by
  show Scalar.select (IntOp.cmpi .slt (v (ix1 p)) 0#32) (IntOp.addi (v (ix1 p)) 100000#32) (v (ix1 p)) = v (ix1 p)
  have hc : IntOp.cmpi .slt (v (ix1 p)) 0#32 ≠ 1#1 := by
    rw [Ne, IntOp.cmpi_slt, show (0#32 : BitVec 32).toInt = 0 from by decide]
    omega
  exact if_neg hc

/-- The column entry of an index vector. -/
theorem idxCol_apply (v : IVec S3300000 32) (p : Fin 3300000) : idxCol v (ix2 p (0 : Fin 1)) = v (ix1 p) := by
  unfold idxCol
  refine broadcastInDim_apply ![0] bcast_S3300000_S3300000x1_0 v (ix2 p (0 : Fin 1)) (ix1 p) (fun a => ?_)
  match a with
  | ⟨0, _⟩ => rfl

/-- A left fold by `and` from 1 over one-bit words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_of_all_one f l (fun n hn => h n (List.mem_cons_of_mem _ hn))

/-- The one index of a one-column array that reduces, along the column axis, into entry p is (p, 0). -/
theorem eq_of_drop_col (i : S3300000x1.Idx) (p : Fin 3300000) (hd : reducesTo_S3300000x1_S3300000_d1.drop i = ix1 p) :
    i = ix2 p (0 : Fin 1) := by
  have e0 : (i 0).val = p.val := by
    have := Shape.ReducesTo.drop_apply_val_of_eq reducesTo_S3300000x1_S3300000_d1 i 0 0
    rw [hd] at this
    exact this.symm
  have e1 : (i 1).val = 0 := by have := idx2_lt1 i; omega
  funext a
  match a with
  | ⟨0, _⟩ => exact Fin.ext e0
  | ⟨1, _⟩ => exact Fin.ext e1

/-- The range test holds at an entry in 0 … N−1. -/
theorem inRange_of_range (v : IVec S3300000 32) (p : Fin 3300000)
    (h : 0 ≤ (v (ix1 p)).toInt ∧ (v (ix1 p)).toInt < 100000) : inRange (idxCol (wrapVec v)) (ix1 p) = 1#1 := by
  have hcol : idxCol (wrapVec v) (ix2 p (0 : Fin 1)) = v (ix1 p) := (idxCol_apply _ p).trans (wrapVec_of_nonneg v p h.1)
  unfold inRange
  rw [Host.reduce_eq_foldl]
  refine foldl_andi_of_all_one _ _ (fun i hi => ?_)
  have hd : reducesTo_S3300000x1_S3300000_d1.drop i = ix1 p := of_decide_eq_true (List.mem_filter.1 hi).2
  rw [eq_of_drop_col i p hd]
  show IntOp.andi (IntOp.cmpi .sge (idxCol (wrapVec v) (ix2 p (0 : Fin 1))) 0#32)
    (IntOp.cmpi .sle (idxCol (wrapVec v) (ix2 p (0 : Fin 1))) 99999#32) = 1#1
  rw [hcol, IntOp.andi_eq_one, IntOp.cmpi_sge, IntOp.cmpi_sle, show (0#32 : BitVec 32).toInt = 0 from by decide,
    show (99999#32 : BitVec 32).toInt = 99999 from by decide]
  omega

/-- A wrapped word that equals a node id r clamps to r: what a gather at a destination entry reads. -/
theorem clamp_wrap_of_eq (v : IVec S3300000 32) (p : Fin 3300000) (r : Fin 100000) (h : (v (ix1 p)).toInt = (r.val : Int)) :
    min (wrapVec v (ix1 p)).toInt.toNat (100000 - 1) = r.val := by
  rw [wrapVec_of_nonneg v p (by rw [h]; exact Int.natCast_nonneg _), h]
  have := r.isLt
  omega

/-- Likewise at a source entry: the wrapped word clamps to the named node. -/
theorem clamp_wrap_src (x1 : IVec S2x3200000 32) (hs : SrcInRange x1) (p : Fin 3300000) :
    min (wrapVec (srcVec x1) (ix1 p)).toInt.toNat (100000 - 1) = (srow x1 hs p).val :=
  clamp_wrap_of_eq (srcVec x1) p (srow x1 hs p) (Int.toNat_of_nonneg (srcVec_range x1 hs p).1).symm

/-- A row gather (the gather's clamp after the wrap) at the source vector reads the named row, at any number of columns. -/
theorem rowGather_src {α : Type} (c : Nat)
    (wf : GatherDims.WF ⟨2, ![100000, c]⟩ ⟨2, ![3300000, 1]⟩ ⟨2, ![3300000, c]⟩ [1] [0] [] [0] [] 1 ![1, c])
    (h : (⟨2, ![100000, c]⟩ : Shape).Idx → α) (x1 : IVec S2x3200000 32) (hs : SrcInRange x1) (p : Fin 3300000) (q : Fin c) :
    Host.gather (rowGatherDims 100000 3300000 c wf) h (idxCol (wrapVec (srcVec x1))) (ix2 p q) = h (ix2 (srow x1 hs p) q) := by
  refine (rowGather_apply (by decide) wf h (idxCol (wrapVec (srcVec x1))) p q).trans ?_
  refine congrArg (fun k : Fin 100000 => h (ix2 k q)) (Fin.ext ?_)
  show min (idxCol (wrapVec (srcVec x1)) (ix2 p (0 : Fin 1))).toInt.toNat (100000 - 1) = (srow x1 hs p).val
  rw [idxCol_apply]
  exact clamp_wrap_src x1 hs p

/-- A vector laid along the rows of a rectangle reads, at (p, q), the vector at p. -/
theorem bcast_rows_apply {α : Type} {n m : Nat} (hb : (⟨1, ![n]⟩ : Shape).BroadcastsInDim ⟨2, ![n, m]⟩ ![0]) (hn : n ≠ 1)
    (x : (⟨1, ![n]⟩ : Shape).Idx → α) (p : Fin n) (q : Fin m) :
    broadcastInDim ⟨2, ![n, m]⟩ ![0] hb x (ix2 p q) = x (ix1 p) := by
  refine broadcastInDim_apply ![0] hb x (ix2 p q) (ix1 p) (fun a => ?_)
  have ha : a = (0 : Fin 1) := Subsingleton.elim _ _
  subst ha
  exact (if_neg hn).symm

/-- The take of 16-column rows at the source vector reads the named row: the filler is never selected. -/
theorem take16_apply (h : FVec Ideal S100000x16 .f32) (x1 : IVec S2x3200000 32) (hs : SrcInRange x1) (p : Fin 3300000) (q : Fin 16) :
    take16 (F := Ideal) h (srcVec x1) (ix2 p q) = h (ix2 (srow x1 hs p) q) := by
  have hb : broadcastInDim S3300000x16 ![0] bcast_S3300000_S3300000x16_0 (inRange (idxCol (wrapVec (srcVec x1)))) (ix2 p q) = 1#1 :=
    (bcast_rows_apply bcast_S3300000_S3300000x16_0 (by decide) _ p q).trans (inRange_of_range (srcVec x1) p (srcVec_range x1 hs p))
  unfold take16
  rw [select_apply, hb, select_one]
  exact rowGather_src 16 _ h x1 hs p q

/-- The same for 2-column rows. -/
theorem take2_apply (h : FVec Ideal S100000x2 .f32) (x1 : IVec S2x3200000 32) (hs : SrcInRange x1) (p : Fin 3300000) (q : Fin 2) :
    take2 (F := Ideal) h (srcVec x1) (ix2 p q) = h (ix2 (srow x1 hs p) q) := by
  have hb : broadcastInDim S3300000x2 ![0] bcast_S3300000_S3300000x2_0 (inRange (idxCol (wrapVec (srcVec x1)))) (ix2 p q) = 1#1 :=
    (bcast_rows_apply bcast_S3300000_S3300000x2_0 (by decide) _ p q).trans (inRange_of_range (srcVec x1) p (srcVec_range x1 hs p))
  unfold take2
  rw [select_apply, hb, select_one]
  exact rowGather_src 2 _ h x1 hs p q

/-- The plain row gather (wrap, then the gather's clamp) at the source vector reads the named row too: 16 columns. -/
theorem gather16_src_apply (h : FVec Ideal S100000x16 .f32) (x1 : IVec S2x3200000 32) (hs : SrcInRange x1) (p : Fin 3300000) (q : Fin 16) :
    Host.gather gather_S100000x16_S3300000x1_S3300000x16_1_0_n_n_0_1_116 h (idxCol (wrapVec (srcVec x1))) (ix2 p q) = h (ix2 (srow x1 hs p) q) :=
  rowGather_src 16 _ h x1 hs p q

/-- 2 columns. -/
theorem gather2_src_apply (h : FVec Ideal S100000x2 .f32) (x1 : IVec S2x3200000 32) (hs : SrcInRange x1) (p : Fin 3300000) (q : Fin 2) :
    Host.gather gather_S100000x2_S3300000x1_S3300000x2_1_0_n_n_0_1_12 h (idxCol (wrapVec (srcVec x1))) (ix2 p q) = h (ix2 (srow x1 hs p) q) :=
  rowGather_src 2 _ h x1 hs p q

end Cert.KernelIdeal.Hand

end
-- ==== Proof.Dinv.lean ====
/-
  dinv is a real number at every node. deg[r] is 0 plus a finite sum of ones and zeros (one per index entry whose
  destination is r), a non-negative real; where it is positive its inverse square root is a positive real, and
  elsewhere dinv is 0.
-/
import proofs.«403457_j50019189129603_3_alg».proof.Proof.Terms
import proofs.«403457_j50019189129603_3_alg».proof.Proof.LibRows
import proofs.«403457_j50019189129603_3_alg».proof.Proof.LayerCore
import Idealize.ShloMosaic.PureOps.Ideal.Laws
import Idealize.ShloMosaic.Lib.IdealHost
import Idealize.ShloMosaic.Lib.Pipeline.Value

noncomputable section

open scoped BigOperators

namespace Cert.KernelIdeal.Hand

open Idealize.ShloMosaic Idealize.ShloMosaic.ValueIdx Cert.KernelIdeal Cert.KernelIdeal.Gen Cert.Reals Cert.LibRows

/-- deg at node r: the zero word plus, over all index entries p, the one word where the destination of p is r and 0
    elsewhere. -/
theorem degVec_apply (x1 : IVec S2x3200000 32) (r : Fin 100000) :
    degVec (F := Ideal) x1 (ix1 r)
      = Ideal.ofBits .f32 0x00000000#32
        + ∑ p : Fin 3300000, if (idxCol (dstVec x1) (ix2 p (0 : Fin 1))).toInt = (r.val : Int)
            then Ideal.ofBits .f32 0x3F800000#32 else 0 := by
  unfold degVec scatter_S100000_S3300000x1_S3300000_n_0_0_1
  exact rowScatterAdd1_apply (n := 100000) (e := 3300000) scatter_S100000_S3300000x1_S3300000_n_0_0_1_wf _ _ _ r

/-- deg at node r is a real number: 0 plus a finite sum of ones and zeros. -/
theorem degVec_real (x1 : IVec S2x3200000 32) (r : Fin 100000) : IsReal (degVec (F := Ideal) x1 (ix1 r)) := by
  rw [degVec_apply, Ideal.ofBits_zero_f32, Ideal.ofBits_one_f32]
  exact isReal_zero.add (isReal_sum Finset.univ _ fun p _ => isReal_ite isReal_one isReal_zero)

/-- The inverse square root of a real d where d > 0, and 0 elsewhere, is a real number. -/
theorem select_rsqrt_real (d : EReal) (hd : IsReal d) :
    IsReal (Scalar.select (Ideal.cmp .ogt d (Ideal.ofBits .f32 0x00000000#32)) (Ideal.rsqrt d) (Ideal.ofBits .f32 0x00000000#32)) := by
  obtain ⟨t, rfl⟩ := hd
  rw [Ideal.ofBits_zero_f32]
  unfold Scalar.select
  split_ifs with hc
  · -- the compare says 0 < t: the inverse square root of a positive real is the real (√t)⁻¹
    have ht : 0 < t := by
      by_contra hn
      simp [Ideal.cmp, hn] at hc
    rw [Ideal.rsqrt_coe, if_neg (not_lt.2 ht.le), if_neg ht.ne']
    exact ⟨_, rfl⟩
  · exact isReal_zero

/-- For any vector d of extended reals: where d is real at i, so is "d^(-1/2) where d > 0, else 0" at i. -/
theorem where_rsqrt_real (d : FVec Ideal S100000 .f32) (i : S100000.Idx) (hd : IsReal (d i)) :
    IsReal (select (cmpf (F := Ideal) .ogt d (broadcastInDim S100000 ![] bcast_S_S100000 (constant (F := Ideal) S_ .f32 0x00000000#32)))
      (Host.rsqrt (F := Ideal) d)
      (broadcastInDim S100000 ![] bcast_S_S100000 (id (constant (F := Ideal) S_ .f32 0x00000000#32))) i) :=
  select_rsqrt_real (d i) hd

/-- dinv at node i is a real number, whatever the edge list holds. -/
theorem dinvVec_real (x1 : IVec S2x3200000 32) (i : S100000.Idx) : IsReal (dinvVec (F := Ideal) x1 i) := by
  obtain ⟨r, rfl⟩ : ∃ r : Fin 100000, i = ix1 r := ⟨i 0, eq_ix1 i⟩
  unfold dinvVec
  exact where_rsqrt_real (degVec (F := Ideal) x1) (ix1 r) (degVec_real x1 r)

/-- The dinv column at (i, 0) is dinv at i. -/
theorem dinvCol_apply (x1 : IVec S2x3200000 32) (i : Fin 100000) :
    dinvCol (F := Ideal) x1 (ix2 i (0 : Fin 1)) = dinvVec (F := Ideal) x1 (ix1 i) := by
  unfold dinvCol
  exact shapeCast_apply _ shapeCasts_S100000_S100000x1 (ix2 i (0 : Fin 1)) (ix1 i)
    (by rewrite [Shape.rowMajor_val_one, Shape.rowMajor_val_two]; show i.val = i.val * 1 + 0; omega)

end Cert.KernelIdeal.Hand

end
-- ==== Proof.RefNames.lean ====
/-
  The reference's index vectors and its dinv are the kernel program's. Both programs build the source and destination
  vectors (a row of the edge list followed by the node ids), the wrapped index columns and dinv by the same
  operations on the edge list; the reference builds them twice, once per layer, to the same terms.
-/
import proofs.«403457_j50019189129603_3_alg».proof.Proof.Terms
import proofs.«403457_j50019189129603_3_alg».proof.Proof.RefRead
import proofs.«403457_j50019189129603_3_alg».proof.Proof.LibRows
import proofs.«403457_j50019189129603_3_alg».proof.Proof.LayerCore
import proofs.«403457_j50019189129603_3_alg».proof.Proof.Edges
import proofs.«403457_j50019189129603_3_alg».proof.Proof.Dinv
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Hand Cert.Reals Cert.LibRows
open Cert.ReferenceIdeal.ReadP

variable {F : FTy → Type} [FloatOps F]

theorem ref_src (x1 : IVec S2x3200000 32) : val_main_v4 (F := F) x1 = srcVec x1 := rfl
theorem ref_dst (x1 : IVec S2x3200000 32) : val_main_v7 (F := F) x1 = dstVec x1 := rfl
theorem ref_dinv (x1 : IVec S2x3200000 32) : val_main_v15 (F := F) x1 = dinvVec (F := F) x1 := rfl
/-- The wrapped source column the reference gathers dinv at (layer one). -/
theorem ref_srcw_col_a (x1 : IVec S2x3200000 32) : val_main_v21 (F := F) x1 = idxCol (wrapVec (srcVec x1)) := rfl
/-- The wrapped destination column the reference gathers dinv at (layer one). -/
theorem ref_dstw_col (x1 : IVec S2x3200000 32) : val_main_v28 (F := F) x1 = idxCol (wrapVec (dstVec x1)) := rfl
/-- The wrapped source column the reference gathers the feature rows at (layer one). -/
theorem ref_srcw_col (x1 : IVec S2x3200000 32) : val_main_v36 (F := F) x1 = idxCol (wrapVec (srcVec x1)) := rfl
/-- The destination column of the reference's segment sum (layer one). -/
theorem ref_dst_col (x1 : IVec S2x3200000 32) : val_main_v42 (F := F) x1 = idxCol (dstVec x1) := rfl
theorem ref_src2 (x1 : IVec S2x3200000 32) : val_main_v52 (F := F) x1 = srcVec x1 := rfl
theorem ref_dst2 (x1 : IVec S2x3200000 32) : val_main_v55 (F := F) x1 = dstVec x1 := rfl
theorem ref_dinv2 (x1 : IVec S2x3200000 32) : val_main_v63 (F := F) x1 = dinvVec (F := F) x1 := rfl
theorem ref_srcw_col2_a (x1 : IVec S2x3200000 32) : val_main_v69 (F := F) x1 = idxCol (wrapVec (srcVec x1)) := rfl
theorem ref_dstw_col2 (x1 : IVec S2x3200000 32) : val_main_v76 (F := F) x1 = idxCol (wrapVec (dstVec x1)) := rfl
theorem ref_srcw_col2 (x1 : IVec S2x3200000 32) : val_main_v84 (F := F) x1 = idxCol (wrapVec (srcVec x1)) := rfl
theorem ref_dst_col2 (x1 : IVec S2x3200000 32) : val_main_v90 (F := F) x1 = idxCol (dstVec x1) := rfl

end Cert.Bridge

end
-- ==== Proof.RefLayer.lean ====
/-
  The rows the reference sums, read at one entry. For an index entry p with source node s and destination node r, the
  reference's update row is (features)[s, q] · (dinv[s] · dinv[r]): the feature row gathered at the wrapped and
  clamped source id (which names s itself when the id is in range), times the product of dinv gathered at the
  source and at the destination (whose wrapped, clamped id is r itself when the entry lands on row r).
-/
import proofs.«403457_j50019189129603_3_alg».proof.Proof.Terms
import proofs.«403457_j50019189129603_3_alg».proof.Proof.RefRead
import proofs.«403457_j50019189129603_3_alg».proof.Proof.LibRows
import proofs.«403457_j50019189129603_3_alg».proof.Proof.LayerCore
import proofs.«403457_j50019189129603_3_alg».proof.Proof.Edges
import proofs.«403457_j50019189129603_3_alg».proof.Proof.Dinv
import proofs.«403457_j50019189129603_3_alg».proof.Proof.RefNames
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Hand Cert.Reals Cert.LibRows
open Cert.ReferenceIdeal.ReadP

/-- The two programs' 16-column row gathers have the same dimension numbers. -/
theorem gather16_rec : Cert.ReferenceIdeal.gather_S100000x16_S3300000x1_S3300000x16_1_0_n_n_0_1_116
    = Cert.KernelIdeal.gather_S100000x16_S3300000x1_S3300000x16_1_0_n_n_0_1_116 := rfl

/-- Likewise the 2-column row gathers. -/
theorem gather2_rec : Cert.ReferenceIdeal.gather_S100000x2_S3300000x1_S3300000x2_1_0_n_n_0_1_12
    = Cert.KernelIdeal.gather_S100000x2_S3300000x1_S3300000x2_1_0_n_n_0_1_12 := rfl

/-- The gather of a table of 100000 entries at a one-column array of ids reads, at entry p, the table at the id read
    signed and clamped into 0 … 99999. -/
theorem gather1_apply {α : Type} (x : (⟨1, ![100000]⟩ : Shape).Idx → α) (idx : IVec ⟨2, ![3300000, 1]⟩ 32) (p : Fin 3300000) :
    Host.gather Cert.ReferenceIdeal.gather_S100000_S3300000x1_S3300000_n_0_n_n_0_1_1 x idx (ix1 p)
      = x (ix1 (⟨min (idx (ix2 p (0 : Fin 1))).toInt.toNat (100000 - 1), by omega⟩ : Fin 100000)) := by
  have e1 : ∀ {n : Nat} (k : Fin n), Shape.Idx.ofFin k = ix1 k := fun k => by
    funext a
    have ha : a = (0 : Fin 1) := Subsingleton.elim _ _
    subst ha
    exact Fin.ext rfl
  have e2 : StableHlo.Predicate.ixP p = ix2 p (0 : Fin 1) := by
    funext a
    match a with
    | ⟨0, _⟩ => rfl
    | ⟨1, _⟩ => rfl
  have h := StableHlo.Predicate.gather_take Cert.ReferenceIdeal.gather_S100000_S3300000x1_S3300000_n_0_n_n_0_1_1 rfl rfl rfl rfl
    x idx p (by decide)
  rw [e1, e1] at h
  refine h.trans (congrArg (fun k : Fin 100000 => x (ix1 k)) (Fin.ext ?_))
  show min (idx (StableHlo.Predicate.ixP p)).toInt.toNat (100000 - 1) = min (idx (ix2 p (0 : Fin 1))).toInt.toNat (100000 - 1)
  rw [e2]

/-- At a wrapped id column whose entry p is a node id r, that gather reads the table at r: the wrap and the clamp change nothing. -/
theorem gather1_wrap {α : Type} (x : (⟨1, ![100000]⟩ : Shape).Idx → α) (v : IVec S3300000 32) (p : Fin 3300000) (r : Fin 100000)
    (h : (v (ix1 p)).toInt = (r.val : Int)) :
    Host.gather Cert.ReferenceIdeal.gather_S100000_S3300000x1_S3300000_n_0_n_n_0_1_1 x (idxCol (wrapVec v)) (ix1 p) = x (ix1 r) := by
  refine (gather1_apply x (idxCol (wrapVec v)) p).trans ?_
  refine congrArg (fun k : Fin 100000 => x (ix1 k)) (Fin.ext ?_)
  show min (idxCol (wrapVec v) (ix2 p (0 : Fin 1))).toInt.toNat (100000 - 1) = r.val
  rw [idxCol_apply]
  exact clamp_wrap_of_eq v p r h

/-- The source entry p, read signed, is the node it names. -/
theorem src_toInt (x1 : IVec S2x3200000 32) (hs : SrcInRange x1) (p : Fin 3300000) :
    (srcVec x1 (ix1 p)).toInt = ((srow x1 hs p).val : Int) :=
  (Int.toNat_of_nonneg (srcVec_range x1 hs p).1).symm

/-- Layer one: the reference's update row p at column q, for an entry that lands on row r. -/
theorem ref_rows16 (x0 : S100000x128.Idx → EReal) (x1 : IVec S2x3200000 32) (x2 : S128x16.Idx → EReal) (hs : SrcInRange x1)
    (p : Fin 3300000) (q : Fin 16) (r : Fin 100000) (hr : (dstVec x1 (ix1 p)).toInt = (r.val : Int)) :
    val_main_v40 (F := Ideal) x0 x1 x2 (ix2 p q)
      = val_main_v0 (F := Ideal) x0 x2 (ix2 (srow x1 hs p) q)
          * (dinvVec (F := Ideal) x1 (ix1 (srow x1 hs p)) * dinvVec (F := Ideal) x1 (ix1 r)) := by
  rw [val_main_v40_apply, val_main_v39_apply, val_main_v38_apply, val_main_v30_apply]
  have hi : idx_main_v38 (idx_main_v39 (ix2 p q)) = ix1 p := funext fun a => Fin.ext (by
    match a with
    | ⟨0, _⟩ => rfl)
  rw [hi]
  have h37 : val_main_v37 (F := Ideal) x0 x1 x2 (ix2 p q) = val_main_v0 (F := Ideal) x0 x2 (ix2 (srow x1 hs p) q) := by
    unfold val_main_v37
    rw [ref_srcw_col, gather16_rec]
    exact gather16_src_apply _ x1 hs p q
  have h22 : val_main_v22 (F := Ideal) x1 (ix1 p) = dinvVec (F := Ideal) x1 (ix1 (srow x1 hs p)) := by
    unfold val_main_v22
    rw [ref_dinv, ref_srcw_col_a]
    exact gather1_wrap _ (srcVec x1) p (srow x1 hs p) (src_toInt x1 hs p)
  have h29 : val_main_v29 (F := Ideal) x1 (ix1 p) = dinvVec (F := Ideal) x1 (ix1 r) := by
    unfold val_main_v29
    rw [ref_dinv, ref_dstw_col]
    exact gather1_wrap _ (dstVec x1) p r hr
  rw [h37, h22, h29]
  rfl

/-- Layer two: the same over the 2-column features h·W2. -/
theorem ref_rows2 (x0 : S100000x128.Idx → EReal) (x1 : IVec S2x3200000 32) (x2 : S128x16.Idx → EReal) (x3 : S16.Idx → EReal)
    (x4 : S16x2.Idx → EReal) (hs : SrcInRange x1)
    (p : Fin 3300000) (q : Fin 2) (r : Fin 100000) (hr : (dstVec x1 (ix1 p)).toInt = (r.val : Int)) :
    val_main_v88 (F := Ideal) x0 x1 x2 x3 x4 (ix2 p q)
      = val_main_v48 (F := Ideal) x0 x1 x2 x3 x4 (ix2 (srow x1 hs p) q)
          * (dinvVec (F := Ideal) x1 (ix1 (srow x1 hs p)) * dinvVec (F := Ideal) x1 (ix1 r)) := by
  rw [val_main_v88_apply, val_main_v87_apply, val_main_v86_apply, val_main_v78_apply]
  have hi : idx_main_v86 (idx_main_v87 (ix2 p q)) = ix1 p := funext fun a => Fin.ext (by
    match a with
    | ⟨0, _⟩ => rfl)
  rw [hi]
  have h85 : val_main_v85 (F := Ideal) x0 x1 x2 x3 x4 (ix2 p q) = val_main_v48 (F := Ideal) x0 x1 x2 x3 x4 (ix2 (srow x1 hs p) q) := by
    unfold val_main_v85
    rw [ref_srcw_col2, gather2_rec]
    exact gather2_src_apply _ x1 hs p q
  have h70 : val_main_v70 (F := Ideal) x1 (ix1 p) = dinvVec (F := Ideal) x1 (ix1 (srow x1 hs p)) := by
    unfold val_main_v70
    rw [ref_dinv2, ref_srcw_col2_a]
    exact gather1_wrap _ (srcVec x1) p (srow x1 hs p) (src_toInt x1 hs p)
  have h77 : val_main_v77 (F := Ideal) x1 (ix1 p) = dinvVec (F := Ideal) x1 (ix1 r) := by
    unfold val_main_v77
    rw [ref_dinv2, ref_dstw_col2]
    exact gather1_wrap _ (dstVec x1) p r hr
  rw [h85, h70, h77]
  rfl

end Cert.Bridge

end
-- ==== Proof.RefLogSoftmax.lean ====
/-
  The reference's log-softmax, row by row. From the 2-column array v it takes the row maximum (a max-reduction from −∞,
  then the larger of −∞ and it), subtracts it, exponentiates, sums the row (from 0), takes the logarithm and
  subtracts: at every entry (v − m) − log Σ_k exp(v[·, k] − m), the function the kernel's last pallas_call computes.
  A max-reduction over one axis is the fold of max over that axis's coordinates, in any order; the word 0xFF800000
  is −∞, the identity of max.
-/
import proofs.«403457_j50019189129603_3_alg».proof.Proof.Terms
import proofs.«403457_j50019189129603_3_alg».proof.Proof.RefRead
import proofs.«403457_j50019189129603_3_alg».proof.Proof.LibRows
import proofs.«403457_j50019189129603_3_alg».proof.Proof.LayerCore
import proofs.«403457_j50019189129603_3_alg».proof.Proof.Edges
import proofs.«403457_j50019189129603_3_alg».proof.Proof.Dinv
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Hand Cert.Reals Cert.LibRows
open Cert.ReferenceIdeal.ReadP

/-- The word 0xFF800000 is −∞. -/
theorem ninf_word : Ideal.ofBits .f32 0xFF800000#32 = (⊥ : EReal) := by simp [Ideal.ofBits, Ideal.ieee]

/-- A max-reduction of a 2-column array over its column axis, started from ⊥, read at row r: the fold of max over
    the row's two entries. -/
theorem rowmax_generic (v : Cert.ReferenceIdeal.S100000x2.Idx → EReal) (init : Cert.ReferenceIdeal.S_.Idx → EReal)
    (h' : Cert.ReferenceIdeal.S100000x2.ReducesTo [1] Cert.ReferenceIdeal.S100000) (hu : 0 < Cert.ReferenceIdeal.S_.numel)
    (hinit : init (Shape.Idx.first hu) = (⊥ : EReal)) (r : Fin 100000) :
    Host.reduce (FloatOps.maximumf (F := Ideal) (φ := .f32)) v init h' hu (ix1 r)
      = (Finset.univ : Finset (Fin 2)).fold max (⊥ : EReal) (fun k => v (ix2 r k)) := by
  have hR : Cert.ReferenceIdeal.S100000x2.Reduces [1] Cert.ReferenceIdeal.S100000 := by decide
  rw [Host.reduce_eq_fold_single (FloatOps.maximumf (F := Ideal) (φ := .f32)) v init h' hR hu (ix1 r), hinit]
  -- row r with the column k inserted is the entry (r, k)
  have e : (v ∘ hR.lift (ix1 r)) = fun k : Fin 2 => v (ix2 r k) :=
    funext fun k => congrArg v (funext fun a => Fin.ext (by match a with | ⟨0, _⟩ => rfl | ⟨1, _⟩ => rfl))
  rw [e]
  rfl

/-- The reference's row maximum at row r. -/
theorem ref_rowmax (x0 : S100000x128.Idx → EReal) (x1 : IVec S2x3200000 32) (x2 : S128x16.Idx → EReal) (x3 : S16.Idx → EReal)
    (x4 : S16x2.Idx → EReal) (x5 : S2.Idx → EReal) (r : Fin 100000) :
    val_main_call3_v0 (F := Ideal) x0 x1 x2 x3 x4 x5 (ix1 r)
      = (Finset.univ : Finset (Fin 2)).fold max (⊥ : EReal) (fun k => val_main_v94 (F := Ideal) x0 x1 x2 x3 x4 x5 (ix2 r k)) :=
  rowmax_generic (val_main_v94 (F := Ideal) x0 x1 x2 x3 x4 x5) (val_main_call3_cst (F := Ideal)) _ _ ninf_word r

section
variable (x0 : S100000x128.Idx → EReal) (x1 : IVec S2x3200000 32) (x2 : S128x16.Idx → EReal) (x3 : S16.Idx → EReal)
  (x4 : S16x2.Idx → EReal) (x5 : S2.Idx → EReal)

/-- The row's shift: the larger of −∞ and the row maximum. -/
abbrev rowShift (r : Fin 100000) : EReal :=
  max (⊥ : EReal) ((Finset.univ : Finset (Fin 2)).fold max (⊥ : EReal) (fun k => val_main_v94 (F := Ideal) x0 x1 x2 x3 x4 x5 (ix2 r k)))

/-- The reference's shift at row r. -/
theorem ref_shift (r : Fin 100000) : val_main_call3_v2 (F := Ideal) x0 x1 x2 x3 x4 x5 (ix1 r) = rowShift x0 x1 x2 x3 x4 x5 r := by
  rw [val_main_call3_v2_apply, val_main_call3_v1_apply, val_main_call3_cst_0_apply, ref_rowmax]
  show max (Ideal.ofBits .f32 0xFF800000#32) _ = _
  rw [ninf_word]

/-- The shift broadcast back to the entries of row r. -/
theorem ref_shift_bcast (r : Fin 100000) (k : Fin 2) :
    val_main_call3_v4 (F := Ideal) x0 x1 x2 x3 x4 x5 (ix2 r k) = rowShift x0 x1 x2 x3 x4 x5 r := by
  rw [val_main_call3_v4_apply, val_main_call3_v3_apply]
  have e : idx_main_call3_v3 (idx_main_call3_v4 (ix2 r k)) = ix1 r :=
    funext fun a => Fin.ext (by match a with | ⟨0, _⟩ => rfl)
  rw [e, ref_shift]

/-- The shifted entry. -/
theorem ref_shifted (r : Fin 100000) (k : Fin 2) :
    val_main_call3_v5 (F := Ideal) x0 x1 x2 x3 x4 x5 (ix2 r k)
      = val_main_v94 (F := Ideal) x0 x1 x2 x3 x4 x5 (ix2 r k) - rowShift x0 x1 x2 x3 x4 x5 r := by
  rw [val_main_call3_v5_apply, ref_shift_bcast]
  rfl

/-- The row's sum of exponentials. -/
theorem ref_sumexp (r : Fin 100000) :
    val_main_call3_v7 (F := Ideal) x0 x1 x2 x3 x4 x5 (ix1 r)
      = ∑ k : Fin 2, Ideal.exp (val_main_v94 (F := Ideal) x0 x1 x2 x3 x4 x5 (ix2 r k) - rowShift x0 x1 x2 x3 x4 x5 r) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix1 r) k = ix2 r k :=
    funext fun a => Fin.ext (by match a with | ⟨0, _⟩ => rfl | ⟨1, _⟩ => rfl)
  rw [e, val_main_call3_v6_apply, ref_shifted]
  exact Ideal.hostUnary_exp_def _

/-- The logarithm of the row's sum, broadcast back to the entries of row r. -/
theorem ref_logsum (r : Fin 100000) (q : Fin 2) :
    val_main_call3_v10 (F := Ideal) x0 x1 x2 x3 x4 x5 (ix2 r q)
      = Ideal.log (∑ k : Fin 2, Ideal.exp (val_main_v94 (F := Ideal) x0 x1 x2 x3 x4 x5 (ix2 r k) - rowShift x0 x1 x2 x3 x4 x5 r)) := by
  rw [val_main_call3_v10_apply, val_main_call3_v9_apply, val_main_call3_v8_apply]
  have e : idx_main_call3_v8 (idx_main_call3_v10 (ix2 r q)) = ix1 r :=
    funext fun a => Fin.ext (by match a with | ⟨0, _⟩ => rfl)
  rw [e, ref_sumexp]
  exact Ideal.hostUnary_log_def _

/-- The reference's result is the row-wise log-softmax of its last pre-activation array. -/
theorem ref_lsm :
    val_main_v95 (F := Ideal) x0 x1 x2 x3 x4 x5 = logSoftmaxRows (val_main_v94 (F := Ideal) x0 x1 x2 x3 x4 x5) := by
  funext i
  obtain ⟨r, q, rfl⟩ : ∃ (r : Fin 100000) (q : Fin 2), i = ix2 r q := ⟨i 0, i 1, eq_ix2 i⟩
  rw [val_main_v95_apply, ref_shifted, ref_logsum]
  rfl

end

end Cert.Bridge

end
-- ==== Proof.RefDot.lean ====
/-
  The reference's matrix products, bias rows and pointwise stages at one entry: x·W1 and h·W2 as sums over the
  contracted index, a bias vector broadcast down the rows, the sum with it, and max(·, 0).
-/
import proofs.«403457_j50019189129603_3_alg».proof.Proof.Terms
import proofs.«403457_j50019189129603_3_alg».proof.Proof.RefRead
import proofs.«403457_j50019189129603_3_alg».proof.Proof.LibRows
import proofs.«403457_j50019189129603_3_alg».proof.Proof.LayerCore
import proofs.«403457_j50019189129603_3_alg».proof.Proof.Edges
import proofs.«403457_j50019189129603_3_alg».proof.Proof.Dinv
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Hand Cert.Reals Cert.LibRows
open Cert.ReferenceIdeal.ReadP

/-- (x·W1)[s, q] = Σ_l x[s, l] · W1[l, q]. -/
theorem ref_xw_apply (x0 : S100000x128.Idx → EReal) (x2 : S128x16.Idx → EReal) (s : Fin 100000) (q : Fin 16) :
    val_main_v0 (F := Ideal) x0 x2 (ix2 s q) = ∑ l : Fin 128, x0 (ix2 s l) * x2 (ix2 l q) := by
  -- the contraction at (s, q) runs over column l of row s of x and row l of column q of W1
  refine (val_main_v0_apply x0 x2 (ix2 s q)).trans ?_
  refine Finset.sum_congr rfl fun l _ => ?_
  have el : lidx_main_v0 (ix2 s q) l = ix2 s l := funext fun a => Fin.ext (by
    match a with
    | ⟨0, _⟩ => rfl
    | ⟨1, _⟩ => rfl)
  have er : ridx_main_v0 (ix2 s q) l = ix2 l q := funext fun a => Fin.ext (by
    match a with
    | ⟨0, _⟩ => rfl
    | ⟨1, _⟩ => rfl)
  rw [el, er]

/-- (h·W2)[s, q] = Σ_l h[s, l] · W2[l, q], h the reference's layer-one result. -/
theorem ref_hw_apply (x0 : S100000x128.Idx → EReal) (x1 : IVec S2x3200000 32) (x2 : S128x16.Idx → EReal) (x3 : S16.Idx → EReal)
    (x4 : S16x2.Idx → EReal) (s : Fin 100000) (q : Fin 2) :
    val_main_v48 (F := Ideal) x0 x1 x2 x3 x4 (ix2 s q)
      = ∑ l : Fin 16, val_main_v47 (F := Ideal) x0 x1 x2 x3 (ix2 s l) * x4 (ix2 l q) := by
  -- the contraction at (s, q) runs over column l of row s of h and row l of column q of W2
  refine (val_main_v48_apply x0 x1 x2 x3 x4 (ix2 s q)).trans ?_
  generalize val_main_v47 (F := Ideal) x0 x1 x2 x3 = h
  refine Finset.sum_congr rfl fun l _ => ?_
  have el : lidx_main_v48 (ix2 s q) l = ix2 s l := funext fun a => Fin.ext (by
    match a with
    | ⟨0, _⟩ => rfl
    | ⟨1, _⟩ => rfl)
  have er : ridx_main_v48 (ix2 s q) l = ix2 l q := funext fun a => Fin.ext (by
    match a with
    | ⟨0, _⟩ => rfl
    | ⟨1, _⟩ => rfl)
  rw [el, er]

/-- Layer one's result at an entry: max(aggregate + b1[q], 0). -/
theorem ref_relu_apply (x0 : S100000x128.Idx → EReal) (x1 : IVec S2x3200000 32) (x2 : S128x16.Idx → EReal) (x3 : S16.Idx → EReal)
    (r : Fin 100000) (q : Fin 16) :
    val_main_v47 (F := Ideal) x0 x1 x2 x3 (ix2 r q)
      = max (val_main_v43 (F := Ideal) x0 x1 x2 (ix2 r q) + x3 (ix1 q)) (0 : EReal) := by
  -- the bias broadcast to one row and then down the rows reads b1 at the column; the other operand of max is the zero word
  have eb : idx_main_v44 (idx_main_v45 (ix2 r q)) = ix1 q := funext fun a => Fin.ext (by
    match a with
    | ⟨0, _⟩ => rfl)
  rw [val_main_v47_apply, val_main_v46_apply, val_main_call1_v0_apply, val_main_call1_cst_apply, val_main_v45_apply,
    val_main_v44_apply, eb]
  generalize val_main_v43 (F := Ideal) x0 x1 x2 (ix2 r q) = y
  rw [Ideal.maximumf_def, Ideal.addf_def, Ideal.ofBits_def, Ideal.ofBits_zero_f32]

/-- Layer two's pre-activation at an entry: aggregate + b2[q]. -/
theorem ref_pre2_apply (x0 : S100000x128.Idx → EReal) (x1 : IVec S2x3200000 32) (x2 : S128x16.Idx → EReal) (x3 : S16.Idx → EReal)
    (x4 : S16x2.Idx → EReal) (x5 : S2.Idx → EReal) (r : Fin 100000) (q : Fin 2) :
    val_main_v94 (F := Ideal) x0 x1 x2 x3 x4 x5 (ix2 r q)
      = val_main_v91 (F := Ideal) x0 x1 x2 x3 x4 (ix2 r q) + x5 (ix1 q) := by
  -- the bias broadcast to one row and then down the rows reads b2 at the column
  have eb : idx_main_v92 (idx_main_v93 (ix2 r q)) = ix1 q := funext fun a => Fin.ext (by
    match a with
    | ⟨0, _⟩ => rfl)
  rw [val_main_v94_apply, val_main_v93_apply, val_main_v92_apply, eb]
  generalize val_main_v91 (F := Ideal) x0 x1 x2 x3 x4 (ix2 r q) = y
  rw [Ideal.addf_def]

/-- The 16-entry bias as the one-row array the second pallas_call takes. -/
theorem bias16_row_apply (x3 : S16.Idx → EReal) (q : Fin 16) :
    shapeCast S1x16 (α := EReal) x3 shapeCasts_S16_S1x16 (ix2 (0 : Fin 1) q) = x3 (ix1 q) := by
  -- entry (0, q) of the one-row array and entry q of the vector have the same row-major position
  exact shapeCast_apply x3 shapeCasts_S16_S1x16 (ix2 (0 : Fin 1) q) (ix1 q)
    (by rewrite [Shape.rowMajor_val_one, Shape.rowMajor_val_two]; show q.val = 0 * 16 + q.val; omega)

/-- The 2-entry bias as the one-row array the fourth pallas_call takes. -/
theorem bias2_row_apply (x5 : S2.Idx → EReal) (q : Fin 2) :
    shapeCast S1x2 (α := EReal) x5 shapeCasts_S2_S1x2 (ix2 (0 : Fin 1) q) = x5 (ix1 q) := by
  -- entry (0, q) of the one-row array and entry q of the vector have the same row-major position
  exact shapeCast_apply x5 shapeCasts_S2_S1x2 (ix2 (0 : Fin 1) q) (ix1 q)
    (by rewrite [Shape.rowMajor_val_one, Shape.rowMajor_val_two]; show q.val = 0 * 2 + q.val; omega)

end Cert.Bridge

end
-- ==== Proof.Bridge.lean ====
/-
  The two programs compute one function. Layer by layer, at a node r and a column q:

      kernel      (Σ over the entries that land on r of (features[s, q] · dinv[s])) · dinv[r] + b[q]
      reference    Σ over the entries that land on r of  features[s, q] · (dinv[s] · dinv[r])  + b[q]

  with s the entry's source node. The features are the same matrix product on both sides (a sum over the contracted
  index), every feature entry and every dinv entry is a real number (finite inputs; dinv is built from a count), so
  the factor dinv[r] moves across the finite sum and the product re-associates: the two aggregates agree, hence the
  two max(·, 0) results, hence layer two's features and aggregates, hence the two row-wise log-softmaxes.
  The hypothesis on the edge list (every source id names a node) is what makes the kernel's take and the
  reference's gather read the same row: outside it the take fills with a NaN where the gather clamps.
-/
import proofs.«403457_j50019189129603_3_alg».proof.Proof.Terms
import proofs.«403457_j50019189129603_3_alg».proof.Proof.RefRead
import proofs.«403457_j50019189129603_3_alg».proof.Proof.LibRows
import proofs.«403457_j50019189129603_3_alg».proof.Proof.LayerCore
import proofs.«403457_j50019189129603_3_alg».proof.Proof.Edges
import proofs.«403457_j50019189129603_3_alg».proof.Proof.Dinv
import proofs.«403457_j50019189129603_3_alg».proof.Proof.RefNames
import proofs.«403457_j50019189129603_3_alg».proof.Proof.RefLayer
import proofs.«403457_j50019189129603_3_alg».proof.Proof.RefLogSoftmax
import proofs.«403457_j50019189129603_3_alg».proof.Proof.RefDot
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Hand Cert.Reals Cert.LibRows
open Cert.ReferenceIdeal.ReadP

section
variable (x0 : S100000x128.Idx → EReal) (x1 : IVec S2x3200000 32) (x2 : S128x16.Idx → EReal) (x3 : S16.Idx → EReal)
  (x4 : S16x2.Idx → EReal) (x5 : S2.Idx → EReal)

/-- dinv at node r. -/
abbrev dinvAt (r : Fin 100000) : EReal := dinvVec (F := Ideal) x1 (ix1 r)

theorem dinvAt_real (r : Fin 100000) : IsReal (dinvAt x1 r) := dinvVec_real x1 (ix1 r)

/-- A zero array of the programs reads 0 everywhere. -/
theorem zeros16_apply (i : S100000x16.Idx) :
    broadcastInDim S100000x16 ![] bcast_S_S100000x16 (constant (F := Ideal) S_ .f32 0x00000000#32) i = (0 : EReal) :=
  Ideal.ofBits_zero_f32
theorem zeros2_apply (i : S100000x2.Idx) :
    broadcastInDim S100000x2 ![] bcast_S_S100000x2 (constant (F := Ideal) S_ .f32 0x00000000#32) i = (0 : EReal) :=
  Ideal.ofBits_zero_f32

/-! ## Layer one -/

/-- The kernel's scaled feature row at the source of entry p is real. -/
theorem take16_real (hx0 : ∀ i, IsReal (x0 i)) (hx2 : ∀ i, IsReal (x2 i)) (hs : SrcInRange x1) (p : Fin 3300000) (q : Fin 16) :
    IsReal (take16 (F := Ideal) (xwScaled x0 x2 (dinvCol (F := Ideal) x1)) (srcVec x1) (ix2 p q)) := by
  rw [take16_apply _ x1 hs p q]
  show IsReal ((∑ l : Fin 128, x0 (ix2 (srow x1 hs p) l) * x2 (ix2 l q)) * dinvCol (F := Ideal) x1 (ix2 (srow x1 hs p) (0 : Fin 1)))
  rw [dinvCol_apply]
  exact (isReal_sum _ _ fun l _ => (hx0 _).mul (hx2 _)).mul (dinvVec_real x1 _)

/-- The aggregates of layer one agree: the kernel's segment sum scaled by dinv[r] is the reference's segment sum. -/
theorem agg1_eq (hx0 : ∀ i, IsReal (x0 i)) (hx2 : ∀ i, IsReal (x2 i)) (hs : SrcInRange x1) (r : Fin 100000) (q : Fin 16) :
    seg16 (F := Ideal) (take16 (F := Ideal) (xwScaled x0 x2 (dinvCol (F := Ideal) x1)) (srcVec x1)) (dstVec x1) (ix2 r q) * dinvAt x1 r
      = val_main_v43 (F := Ideal) x0 x1 x2 (ix2 r q) := by
  refine segsum_scale (n := 100000) (e := 3300000) (c := 16) scatter_S100000x16_S3300000x1_S3300000x16_1_0_0_1.wf
    (broadcastInDim S100000x16 ![] bcast_S_S100000x16 (constant (F := Ideal) S_ .f32 0x00000000#32)) (zeros16_apply)
    (idxCol (dstVec x1))
    (take16 (F := Ideal) (xwScaled x0 x2 (dinvCol (F := Ideal) x1)) (srcVec x1))
    (val_main_v40 (F := Ideal) x0 x1 x2) (dinvAt x1)
    (take16_real x0 x1 x2 hx0 hx2 hs) (dinvAt_real x1) ?_ r q
  intro p q' r' hdst
  rw [idxCol_apply] at hdst
  rw [ref_rows16 x0 x1 x2 hs p q' r' hdst, take16_apply _ x1 hs p q', ref_xw_apply]
  show _ = ((∑ l : Fin 128, x0 (ix2 (srow x1 hs p) l) * x2 (ix2 l q')) * dinvCol (F := Ideal) x1 (ix2 (srow x1 hs p) (0 : Fin 1))) * dinvAt x1 r'
  rw [dinvCol_apply, mul_assoc]

/-- Layer one's aggregate, scaled, is real. -/
theorem agg1_real (hx0 : ∀ i, IsReal (x0 i)) (hx2 : ∀ i, IsReal (x2 i)) (hs : SrcInRange x1) (r : Fin 100000) (q : Fin 16) :
    IsReal (seg16 (F := Ideal) (take16 (F := Ideal) (xwScaled x0 x2 (dinvCol (F := Ideal) x1)) (srcVec x1)) (dstVec x1) (ix2 r q)) :=
  segsum_real (n := 100000) (e := 3300000) (c := 16) scatter_S100000x16_S3300000x1_S3300000x16_1_0_0_1.wf
    (broadcastInDim S100000x16 ![] bcast_S_S100000x16 (constant (F := Ideal) S_ .f32 0x00000000#32)) (zeros16_apply)
    (idxCol (dstVec x1)) _ (take16_real x0 x1 x2 hx0 hx2 hs) r q

/-- Layer one at an entry, the kernel's way. -/
theorem layer1_apply (r : Fin 100000) (q : Fin 16) :
    layer1 x0 x1 x2 x3 (ix2 r q)
      = max (seg16 (F := Ideal) (take16 (F := Ideal) (xwScaled x0 x2 (dinvCol (F := Ideal) x1)) (srcVec x1)) (dstVec x1) (ix2 r q) * dinvAt x1 r + x3 (ix1 q)) (0 : EReal) := by
  show max (_ * dinvCol (F := Ideal) x1 (ix2 r (0 : Fin 1)) + shapeCast S1x16 (α := EReal) x3 shapeCasts_S16_S1x16 (ix2 (0 : Fin 1) q)) (0 : EReal) = _
  rw [dinvCol_apply, bias16_row_apply]

/-- LAYER ONE: the kernel program's and the reference's results are one array. -/
theorem layer1_eq (hx0 : ∀ i, IsReal (x0 i)) (hx2 : ∀ i, IsReal (x2 i)) (hs : SrcInRange x1) :
    layer1 x0 x1 x2 x3 = val_main_v47 (F := Ideal) x0 x1 x2 x3 := by
  funext i
  obtain ⟨r, q, rfl⟩ : ∃ (r : Fin 100000) (q : Fin 16), i = ix2 r q := ⟨i 0, i 1, eq_ix2 i⟩
  rw [layer1_apply, ref_relu_apply, agg1_eq x0 x1 x2 hx0 hx2 hs]

/-- Layer one's result is real at every entry. -/
theorem layer1_real (hx0 : ∀ i, IsReal (x0 i)) (hx2 : ∀ i, IsReal (x2 i)) (hx3 : ∀ i, IsReal (x3 i)) (hs : SrcInRange x1)
    (i : S100000x16.Idx) : IsReal (layer1 x0 x1 x2 x3 i) := by
  obtain ⟨r, q, rfl⟩ : ∃ (r : Fin 100000) (q : Fin 16), i = ix2 r q := ⟨i 0, i 1, eq_ix2 i⟩
  rw [layer1_apply]
  exact (((agg1_real x0 x1 x2 hx0 hx2 hs r q).mul (dinvAt_real x1 r)).add (hx3 _)).max isReal_zero

/-! ## Layer two -/

/-- The kernel's scaled 2-column feature row at the source of entry p is real. -/
theorem take2_real (hx0 : ∀ i, IsReal (x0 i)) (hx2 : ∀ i, IsReal (x2 i)) (hx3 : ∀ i, IsReal (x3 i)) (hx4 : ∀ i, IsReal (x4 i))
    (hs : SrcInRange x1) (p : Fin 3300000) (q : Fin 2) :
    IsReal (take2 (F := Ideal) (hwScaled (layer1 x0 x1 x2 x3) x4 (dinvCol (F := Ideal) x1)) (srcVec x1) (ix2 p q)) := by
  rw [take2_apply _ x1 hs p q]
  show IsReal ((∑ l : Fin 16, layer1 x0 x1 x2 x3 (ix2 (srow x1 hs p) l) * x4 (ix2 l q)) * dinvCol (F := Ideal) x1 (ix2 (srow x1 hs p) (0 : Fin 1)))
  rw [dinvCol_apply]
  exact (isReal_sum _ _ fun l _ => (layer1_real x0 x1 x2 x3 hx0 hx2 hx3 hs _).mul (hx4 _)).mul (dinvVec_real x1 _)

/-- The aggregates of layer two agree. -/
theorem agg2_eq (hx0 : ∀ i, IsReal (x0 i)) (hx2 : ∀ i, IsReal (x2 i)) (hx3 : ∀ i, IsReal (x3 i)) (hx4 : ∀ i, IsReal (x4 i))
    (hs : SrcInRange x1) (r : Fin 100000) (q : Fin 2) :
    seg2 (F := Ideal) (take2 (F := Ideal) (hwScaled (layer1 x0 x1 x2 x3) x4 (dinvCol (F := Ideal) x1)) (srcVec x1)) (dstVec x1) (ix2 r q) * dinvAt x1 r
      = val_main_v91 (F := Ideal) x0 x1 x2 x3 x4 (ix2 r q) := by
  refine segsum_scale (n := 100000) (e := 3300000) (c := 2) scatter_S100000x2_S3300000x1_S3300000x2_1_0_0_1.wf
    (broadcastInDim S100000x2 ![] bcast_S_S100000x2 (constant (F := Ideal) S_ .f32 0x00000000#32)) (zeros2_apply)
    (idxCol (dstVec x1))
    (take2 (F := Ideal) (hwScaled (layer1 x0 x1 x2 x3) x4 (dinvCol (F := Ideal) x1)) (srcVec x1))
    (val_main_v88 (F := Ideal) x0 x1 x2 x3 x4) (dinvAt x1)
    (take2_real x0 x1 x2 x3 x4 hx0 hx2 hx3 hx4 hs) (dinvAt_real x1) ?_ r q
  intro p q' r' hdst
  rw [idxCol_apply] at hdst
  rw [ref_rows2 x0 x1 x2 x3 x4 hs p q' r' hdst, take2_apply _ x1 hs p q', ref_hw_apply, ← layer1_eq x0 x1 x2 x3 hx0 hx2 hs]
  show _ = ((∑ l : Fin 16, layer1 x0 x1 x2 x3 (ix2 (srow x1 hs p) l) * x4 (ix2 l q')) * dinvCol (F := Ideal) x1 (ix2 (srow x1 hs p) (0 : Fin 1))) * dinvAt x1 r'
  rw [dinvCol_apply, mul_assoc]

/-- THE TWO PROGRAMS' RESULTS ARE ONE ARRAY, for finite x, W1, b1, W2 and an edge list whose source ids name nodes. -/
theorem out_eq (hx0 : ∀ i, IsReal (x0 i)) (hx2 : ∀ i, IsReal (x2 i)) (hx3 : ∀ i, IsReal (x3 i)) (hx4 : ∀ i, IsReal (x4 i))
    (hs : SrcInRange x1) :
    Cert.KernelIdeal.Hand.out x0 x1 x2 x3 x4 x5 = val_main_v95 (F := Ideal) x0 x1 x2 x3 x4 x5 := by
  rw [ref_lsm]
  refine congrArg logSoftmaxRows ?_
  funext i
  obtain ⟨r, q, rfl⟩ : ∃ (r : Fin 100000) (q : Fin 2), i = ix2 r q := ⟨i 0, i 1, eq_ix2 i⟩
  show seg2 (F := Ideal) _ (dstVec x1) (ix2 r q) * dinvCol (F := Ideal) x1 (ix2 r (0 : Fin 1)) + shapeCast S1x2 (α := EReal) x5 shapeCasts_S2_S1x2 (ix2 (0 : Fin 1) q) = _
  rw [dinvCol_apply, bias2_row_apply, ref_pre2_apply, ← agg2_eq x0 x1 x2 x3 x4 hx0 hx2 hx3 hx4 hs r q]

end

end Cert.Bridge

end
-- ==== Proof.lean ====
/-
  A two-layer graph convolution: the Pallas program against its jnp reference, over the extended reals.

  Both programs compute, for node features x, an edge list, weights W1, W2 and biases b1, b2,

      h   = max(Â (x·W1) + b1, 0),      out = log_softmax(Â (h·W2) + b2),

  with Â the edge list's adjacency (one self-loop added per node) normalised by dinv[s] · dinv[d], dinv = deg^(-1/2).
  The reference multiplies every gathered row by dinv[s] · dinv[d] before summing it into row d; the Pallas program
  scales the rows of x·W by dinv[s] before gathering and the summed row by dinv[d] afterwards:

      dinv[d] · Σ_{(s, d)} dinv[s] · (x·W)[s]  =  Σ_{(s, d)} (dinv[s] · dinv[d]) · (x·W)[s] .

  That is distributivity over a finite sum, which holds on the real numbers and fails at ±∞: it is where the finiteness of
  the float inputs is used (dinv is real whatever the edge list: it is built from a count). The other precondition
  conjunct, that every edge's source id names a node, is what makes the program's take (which fills an out-of-range row
  with a NaN) and the reference's gather (which clamps the id) read the same row.

  The frames of the two kernel programs are the generated ones; the reference's frame is its run with the result
  dropped. The idealization rewrote nothing, so there is nothing to preserve. For the equivalence both runs are
  stated at one function of the arguments (Hand.out): the kernel program's through its fold (KValue), the
  reference's through its run read stage by stage and the bridge (Bridge.out_eq).
-/
import proofs.«403457_j50019189129603_3_alg».proof.Defs
import proofs.«403457_j50019189129603_3_alg».proof.Proof.Gen.Kernel
import proofs.«403457_j50019189129603_3_alg».proof.Proof.Gen.Kernel.Frame
import proofs.«403457_j50019189129603_3_alg».proof.Proof.Gen.KernelIdeal
import proofs.«403457_j50019189129603_3_alg».proof.Proof.Gen.KernelIdeal.Frame
import proofs.«403457_j50019189129603_3_alg».proof.Proof.Gen.ReferenceIdeal
import proofs.«403457_j50019189129603_3_alg».proof.Proof.Gen.Pre_finite_inputs
import proofs.«403457_j50019189129603_3_alg».proof.Proof.KernelRun
import proofs.«403457_j50019189129603_3_alg».proof.Proof.KValue
import proofs.«403457_j50019189129603_3_alg».proof.Proof.RefRun
import proofs.«403457_j50019189129603_3_alg».proof.Proof.RefRead
import proofs.«403457_j50019189129603_3_alg».proof.Proof.Pre
import proofs.«403457_j50019189129603_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at `Hand.out` of the kernel program's arguments: the kernel program by its fold, the
    reference by its run, the agreement of the arguments and the bridge, under what the precondition says of the
    arguments entry by entry. -/
theorem algebraic : Cert.algebraic_KernelIdeal_ReferenceIdeal := by
  intro m ρ m' ρ' hpre hagree
  refine ⟨fun c => Cert.KernelIdeal.Hand.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m ρ c), (h c).2⟩)
      (Cert.KernelIdeal.Gen.run_out (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h2, h3, h4, _, hsrc⟩ := Cert.PreRead.of_pre _ _ _ _ _ _ (hpre c)
    rw [Cert.ReferenceIdeal.ReadP.val_main_v95_eq m' c, (hagree c).1, (hagree c).2.1, (hagree c).2.2.1, (hagree c).2.2.2.1,
      (hagree c).2.2.2.2.1, (hagree c).2.2.2.2.2]
    exact (Cert.Bridge.out_eq _ _ _ _ _ _ h0 h2 h3 h4 hsrc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
